-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_

variable [Facts]

def fn_part2 {F : FTy → Type} [FloatOps F] (main_arg7 : FVec F S256x2048 .f32) (main_arg8 : FVec F S256 .f32) (main_v33 : IVec S_ 1) : IVec S_ 1 :=
  let main_v34 : FVec F S256x2048 .f32 := Host.absf main_arg7
  let main_cst_12 : FVec F S_ .f32 := constant S_ .f32 0x7F800000#32
  let main_v35 : FVec F S256x2048 .f32 := broadcastInDim S256x2048 ![] bcast_S_S256x2048 main_cst_12
  let main_v36 : IVec S256x2048 1 := cmpf .olt main_v34 main_v35
  let main_c_13 : IVec S_ 1 := constantI S_ 1 1#1
  let main_v37 : IVec S_ 1 := (fun x v => Host.reduce IntOp.andi x v reducesTo_S256x2048_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S2048x512 .f32) (main_arg6 : FVec F S2048 .f32) (main_arg7 : FVec F S256x2048 .f32) (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S65536x256 .f32) (main_arg1 : FVec F S256 .f32) (main_arg2 : FVec F S256 .f32) (main_arg3 : FVec F S512x256 .f32) (main_arg4 : FVec F S512 .f32) (main_arg5 : FVec F S2048x512 .f32) (main_arg6 : FVec F S2048 .f32) (main_arg7 : FVec F S256x2048 .f32) (main_arg8 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S1x256 : Shape := ⟨2, ![1, 256]⟩
abbrev S4096x256 : Shape := ⟨2, ![4096, 256]⟩
abbrev S_ : Shape := ⟨0, ![]⟩
abbrev S256x512 : Shape := ⟨2, ![256, 512]⟩
abbrev S512x2048 : Shape := ⟨2, ![512, 2048]⟩
abbrev S2048x256 : Shape := ⟨2, ![2048, 256]⟩
abbrev S1x512 : Shape := ⟨2, ![1, 512]⟩
abbrev S1x2048 : Shape := ⟨2, ![1, 2048]⟩
abbrev S1024x256 : Shape := ⟨2, ![1024, 256]⟩
abbrev S1024x512 : Shape := ⟨2, ![1024, 512]⟩
abbrev S1024x2048 : Shape := ⟨2, ![1024, 2048]⟩

abbrev nBuf : Space → Nat
  | .hbm => 32
  | .vmem => 20
  | .smem => 0
  | _ => 0

abbrev bufTy : (tb : Table) → Fin (tcTables nBuf tb) → BufTy
  | .hbm, ⟨0, _⟩ => ⟨S65536x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S_, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S256x512, .f32⟩
  | .hbm, ⟨20, _⟩ => ⟨S256x512, .bf16⟩
  | .hbm, ⟨21, _⟩ => ⟨S512x2048, .f32⟩
  | .hbm, ⟨22, _⟩ => ⟨S512x2048, .bf16⟩
  | .hbm, ⟨23, _⟩ => ⟨S2048x256, .f32⟩
  | .hbm, ⟨24, _⟩ => ⟨S2048x256, .bf16⟩
  | .hbm, ⟨25, _⟩ => ⟨S1x256, .f32⟩
  | .hbm, ⟨26, _⟩ => ⟨S1x256, .f32⟩
  | .hbm, ⟨27, _⟩ => ⟨S1x512, .f32⟩
  | .hbm, ⟨28, _⟩ => ⟨S1x2048, .f32⟩
  | .hbm, ⟨29, _⟩ => ⟨S1x256, .f32⟩
  | .hbm, ⟨30, _⟩ => ⟨S65536x256, .f32⟩
  | .hbm, ⟨31, _⟩ => ⟨S65536x256, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x512, .bf16⟩
  | .local _ .vmem, ⟨11, _⟩ => ⟨S1x512, .f32⟩
  | .local _ .vmem, ⟨12, _⟩ => ⟨S512x2048, .bf16⟩
  | .local _ .vmem, ⟨13, _⟩ => ⟨S1x2048, .f32⟩
  | .local _ .vmem, ⟨14, _⟩ => ⟨S2048x256, .bf16⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg11_0 : Ref sig .tc := ⟨.vmem, 16, rfl⟩
abbrev cc1_stg11_1 : Ref sig .tc := ⟨.vmem, 17, rfl⟩
abbrev cc1_stg12_0 : Ref sig .tc := ⟨.vmem, 18, rfl⟩
abbrev cc1_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem11_1 : DmaSem sig := 17
abbrev cc1_sem12_0 : DmaSem sig := 18
abbrev cc1_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2048x256 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  inb_S1x256_S1x256_0_0 : ∀ a, (![0, 0] : Fin 2 → Nat) a + S1x256.size a ≤ S1x256.size a
  h_S1x256 : 0 < S1x256.numel
  inb_S4096x256_S4096x256_0_0 : ∀ a, (![0, 0] : Fin 2 → Nat) a + S4096x256.size a ≤ S4096x256.size a
  h_S4096x256 : 0 < S4096x256.numel
  shapeCasts_S1x256_S1x256 : S1x256.ShapeCasts S1x256
  reduces_S4096x256_S256 : S4096x256.Reduces [0] S256
  shapeCasts_S256_S1x256 : S256.ShapeCasts S1x256
  bcast_S_S1x256 : S_.BroadcastsInDim S1x256 (![] : Fin 0 → Fin S1x256.rank)
  transposes_S512x256_S256x512_1_0 : S512x256.Transposes [1, 0] S256x512
  bitsLt_bf16_f32 : FTy.bits .bf16 < FTy.bits .f32
  transposes_S2048x512_S512x2048_1_0 : S2048x512.Transposes [1, 0] S512x2048
  transposes_S256x2048_S2048x256_1_0 : S256x2048.Transposes [1, 0] S2048x256
  shapeCasts_S512_S1x512 : S512.ShapeCasts S1x512
  shapeCasts_S2048_S1x2048 : S2048.ShapeCasts S1x2048
  inb_S1024x256_S1024x256_0_0 : ∀ a, (![0, 0] : Fin 2 → Nat) a + S1024x256.size a ≤ S1024x256.size a
  h_S1024x256 : 0 < S1024x256.numel
  broadcasts_S1x256_S1024x256 : S1x256.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x256_S256x512_S1024x512_1_0_0_1_n_n_wf : DotDims.WF S1024x256 S256x512 S1024x512 [1] [0] [0] [1] [] []
  dot_S1024x512_S512x2048_S1024x2048_1_0_0_1_n_n_wf : DotDims.WF S1024x512 S512x2048 S1024x2048 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .f32 = 32 ∨ (Rect.block (s := S65536x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .bf16 = 32 ∨ (Rect.block (s := S256x512) S256x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x2048.size a ≤ S512x2048.size a
  hwx1_7 : ∀ i : grid1.Coords, EltTy.bits .bf16 = 32 ∨ (Rect.block (s := S512x2048) S512x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2048x256.size a ≤ S2048x256.size a
  hwx1_9 : ∀ i : grid1.Coords, EltTy.bits .bf16 = 32 ∨ (Rect.block (s := S2048x256) S2048x256.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x256.size a ≤ S65536x256.size a
  hwx1_11 : ∀ i : grid1.Coords, EltTy.bits .f32 = 32 ∨ (Rect.block (s := S65536x256) S1024x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x256.size a ≤ S65536x256.size a
  hwx1_12 : ∀ i : grid1.Coords, EltTy.bits .f32 = 32 ∨ (Rect.block (s := S65536x256) S1024x256.size (cc1_transform_12 i) (hinb1_12 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S512x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S2048x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v18_0) S1024x256.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v18_1) S1024x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S_ : Shape := ⟨0, ![]⟩
abbrev S1x256 : Shape := ⟨2, ![1, 256]⟩
abbrev S256x512 : Shape := ⟨2, ![256, 512]⟩
abbrev S65536x512 : Shape := ⟨2, ![65536, 512]⟩
abbrev S1x512 : Shape := ⟨2, ![1, 512]⟩
abbrev S512x2048 : Shape := ⟨2, ![512, 2048]⟩
abbrev S65536x2048 : Shape := ⟨2, ![65536, 2048]⟩
abbrev S1x2048 : Shape := ⟨2, ![1, 2048]⟩
abbrev S2048x256 : Shape := ⟨2, ![2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S65536x256, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S1x256, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S256x512, .f32⟩
  | .hbm, ⟨41, _⟩ => ⟨S65536x512, .f32⟩
  | .hbm, ⟨42, _⟩ => ⟨S1x512, .f32⟩
  | .hbm, ⟨43, _⟩ => ⟨S65536x512, .f32⟩
  | .hbm, ⟨44, _⟩ => ⟨S65536x512, .f32⟩
  | .hbm, ⟨45, _⟩ => ⟨S512x2048, .f32⟩
  | .hbm, ⟨46, _⟩ => ⟨S65536x2048, .f32⟩
  | .hbm, ⟨47, _⟩ => ⟨S1x2048, .f32⟩
  | .hbm, ⟨48, _⟩ => ⟨S65536x2048, .f32⟩
  | .hbm, ⟨49, _⟩ => ⟨S65536x2048, .f32⟩
  | .hbm, ⟨50, _⟩ => ⟨S2048x256, .f32⟩
  | .hbm, ⟨51, _⟩ => ⟨S65536x256, .f32⟩
  | .hbm, ⟨52, _⟩ => ⟨S1x256, .f32⟩
  | .hbm, ⟨53, _⟩ => ⟨S65536x256, .f32⟩
  | .hbm, ⟨54, _⟩ => ⟨S65536x256, .f32⟩
  | .hbm, ⟨55, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  reducesTo_S65536x256_S256_d0 : S65536x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  transposes_S256x2048_S2048x256_1_0 : S256x2048.Transposes [1, 0] S2048x256
  dot_S65536x256_S256x512_S65536x512_1_0_0_1_n_n_wf : DotDims.WF S65536x256 S256x512 S65536x512 [1] [0] [0] [1] [] []
  dot_S65536x512_S512x2048_S65536x2048_1_0_0_1_n_n_wf : DotDims.WF S65536x512 S512x2048 S65536x2048 [1] [0] [0] [1] [] []
  dot_S65536x2048_S2048x256_S65536x256_1_0_0_1_n_n_wf : DotDims.WF S65536x2048 S2048x256 S65536x256 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf
def dot_S65536x2048_S2048x256_S65536x256_1_0_0_1_n_n : DotDims S65536x2048 S2048x256 S65536x256 where
  lhsContracting := [1]
  rhsContracting := [0]
  lhsNonContracting := [0]
  rhsNonContracting := [1]
  lhsBatch := []
  rhsBatch := []
  wf := dot_S65536x2048_S2048x256_S65536x256_1_0_0_1_n_n_wf

class Facts : Prop extends Facts₀ where

variable [Facts]
-- ==== Proof.Spec.lean ====
/-
  The mathematics both programs compute, as plain functions of coordinates over the extended reals.
  A batch of 65536 rows of 256 features is normalised column by column (batch mean, biased batch variance,
  reciprocal square root of the variance plus a small constant, an affine map), the normalised row is kept
  through a hyperbolic tangent, and it is pushed through three affine layers (256 → 512 → 2048 → 256) and a last
  hyperbolic tangent.  The two programs differ only in how the variance is obtained: as the mean of the squares
  minus the square of the mean, or as the mean of the squared deviations.
-/
import Idealize.ShloMosaic.PureOps.Ideal
import Idealize.ShloMosaic.Lib.ValueIdx

noncomputable section

namespace Cert.Spec

open Idealize.ShloMosaic

/-! ## Arrays read by coordinates -/

/-- A rank-2 array read at a row and a column. -/
def mat {n0 n1 : Nat} (a : (⟨2, ![n0, n1]⟩ : Shape).Idx → EReal) (i : Fin n0) (j : Fin n1) : EReal :=
  a (ValueIdx.ix2 i j)
/-- A rank-2 array read transposed: `matT a i j` is the entry at row `j`, column `i`. -/
def matT {n0 n1 : Nat} (a : (⟨2, ![n0, n1]⟩ : Shape).Idx → EReal) (i : Fin n1) (j : Fin n0) : EReal :=
  a (ValueIdx.ix2 j i)
/-- A rank-1 array read at a position. -/
def vec {n : Nat} (a : (⟨1, ![n]⟩ : Shape).Idx → EReal) (i : Fin n) : EReal :=
  a (ValueIdx.ix1 i)
/-- A one-row rank-2 array read at a column. -/
def row {n : Nat} (a : (⟨2, ![1, n]⟩ : Shape).Idx → EReal) (j : Fin n) : EReal :=
  a (ValueIdx.ix2 (0 : Fin 1) j)

/-! ## The constants -/

/-- The batch size, as the binary32 word both programs divide by. -/
def cN : EReal := Ideal.ofBits .f32 0x47800000#32
/-- The small constant added to the variance, as the binary32 word both programs add. -/
def eps : EReal := Ideal.ofBits .f32 0x3727C5AC#32

/-! ## The batch statistics -/

/-- The sum of column `j` over all rows. -/
def colSum (x : Fin 65536 → Fin 256 → EReal) (j : Fin 256) : EReal := ∑ r : Fin 65536, x r j
/-- The sum of the squares of column `j` over all rows. -/
def colSumSq (x : Fin 65536 → Fin 256 → EReal) (j : Fin 256) : EReal := ∑ r : Fin 65536, x r j * x r j
/-- The batch mean of column `j`. -/
def mean (x : Fin 65536 → Fin 256 → EReal) (j : Fin 256) : EReal := Ideal.div (colSum x j) cN
/-- The variance as the mean of the squares minus the square of the mean. -/
def varK (x : Fin 65536 → Fin 256 → EReal) (j : Fin 256) : EReal :=
  Ideal.div (colSumSq x j) cN - mean x j * mean x j
/-- The variance as the mean of the squared deviations from the mean. -/
def varR (x : Fin 65536 → Fin 256 → EReal) (j : Fin 256) : EReal :=
  Ideal.div (∑ r : Fin 65536, (x r j - mean x j) * (x r j - mean x j)) cN

/-! ## The normalisation and the layers -/

/-- The normalised, affinely mapped entry `(i, j)`, for a given mean `mu` and variance `v` per column. -/
def xn (x : Fin 65536 → Fin 256 → EReal) (mu v g b : Fin 256 → EReal) (i : Fin 65536) (j : Fin 256) : EReal :=
  (x i j - mu j) * Ideal.rsqrt (v j + eps) * g j + b j

/-- The first result: the hyperbolic tangent of the normalised entry. -/
def raw (x : Fin 65536 → Fin 256 → EReal) (mu v g b : Fin 256 → EReal) (i : Fin 65536) (j : Fin 256) : EReal :=
  Ideal.tanh (xn x mu v g b i j)

/-- One affine layer applied to a row: `∑ₐ inp a · W o a + b o` (the weights stored output-major). -/
def layer {K M : Nat} (inp : Fin K → EReal) (W : Fin M → Fin K → EReal) (b : Fin M → EReal) (o : Fin M) : EReal :=
  (∑ a : Fin K, inp a * W o a) + b o

/-- The second result: three affine layers on the normalised row, then the hyperbolic tangent. -/
def out (x : Fin 65536 → Fin 256 → EReal) (mu v g b : Fin 256 → EReal)
    (W1 : Fin 512 → Fin 256 → EReal) (b1 : Fin 512 → EReal)
    (W2 : Fin 2048 → Fin 512 → EReal) (b2 : Fin 2048 → EReal)
    (Wf : Fin 256 → Fin 2048 → EReal) (bf : Fin 256 → EReal) (i : Fin 65536) (j : Fin 256) : EReal :=
  Ideal.tanh (layer (layer (layer (xn x mu v g b i) W1 b1) W2 b2) Wf bf j)

end Cert.Spec

end
-- ==== Proof.Algebra.lean ====
/-
  The two ways of writing the batch variance agree on real data: for real numbers x₁ … x_N with mean μ = (∑ xᵣ)/N,
  (∑ xᵣ²)/N − μ² = (∑ (xᵣ − μ)²)/N.  On the extended reals the identity needs every entry to be a real number,
  and the divisor to be the number of rows.
-/
import proofs.«123519_j64699387347198_1_alg».proof.Proof.Spec
import Mathlib.Data.EReal.Operations
import Mathlib.Algebra.BigOperators.Field
import Mathlib.Tactic.FieldSimp
import Mathlib.Tactic.Ring
import Mathlib.Tactic.NormNum

noncomputable section

namespace Cert.Spec

open Idealize.ShloMosaic

/-- The divisor both programs use is the number of rows, 65536 = 2¹⁶. -/
private theorem cN_eq : cN = ((65536 : ℝ) : EReal) := by
  unfold cN
  simp [Ideal.ofBits, Ideal.ieee, -EReal.coe_mul]; norm_num

/-- A finite sum of real numbers, read in the extended reals, is the sum of the readings. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance identity over the reals, for any finite index type whose size is the divisor:
    (∑ fᵢ²)/N − ((∑ fᵢ)/N)² = (∑ (fᵢ − μ)²)/N with μ = (∑ fᵢ)/N. -/
private theorem real_var {ι : Type} [Fintype ι] (f : ι → ℝ) (N : ℝ) (hN : (Fintype.card ι : ℝ) = N) (hN0 : N ≠ 0) :
    (∑ i, f i * f i) * (1 / N) - ((∑ i, f i) * (1 / N)) * ((∑ i, f i) * (1 / N))
      = (∑ i, (f i - (∑ k, f k) * (1 / N)) * (f i - (∑ k, f k) * (1 / N))) * (1 / N) := by
  generalize hS : ∑ k, f k = S
  generalize hμ : S * (1 / N) = μ
  have hexp : ∑ i, (f i - μ) * (f i - μ) = ∑ i, f i * f i - 2 * μ * S + N * (μ * μ) := by
    have h1 : ∀ i, (f i - μ) * (f i - μ) = f i * f i - 2 * μ * f i + μ * μ := fun i => by ring
    simp_rw [h1]
    rw [Finset.sum_add_distrib, Finset.sum_sub_distrib, ← Finset.mul_sum, hS, Finset.sum_const,
      Finset.card_univ, nsmul_eq_mul, hN]
  rw [hexp, ← hμ]
  field_simp
  ring

/-- For a batch of real numbers the mean of the squares minus the squared mean is the mean of the squared deviations. -/
theorem varK_eq_varR (x : Fin 65536 → Fin 256 → EReal) (hx : ∀ i j, ∃ r : ℝ, x i j = (r : EReal)) :
    varK x = varR x := by
  choose r hr using hx
  have hx' : x = fun i j => ((r i j : ℝ) : EReal) := funext₂ hr
  subst hx'
  funext j
  have hN0 : (65536 : ℝ) ≠ 0 := by norm_num
  have hcard : ((Fintype.card (Fin 65536) : ℕ) : ℝ) = 65536 := by
    rw [Fintype.card_fin]; norm_num
  have hmean : mean (fun i j => ((r i j : ℝ) : EReal)) j
      = (((∑ i, r i j) * (1 / 65536) : ℝ) : EReal) := by
    unfold mean colSum
    rw [cN_eq, Ideal.div_coe hN0, coe_sum, ← EReal.coe_mul]
  unfold varK varR
  rw [hmean]
  unfold colSumSq
  rw [cN_eq, Ideal.div_coe hN0, Ideal.div_coe hN0]
  simp only [← EReal.coe_mul, ← EReal.coe_sub]
  rw [coe_sum, coe_sum]
  simp only [← EReal.coe_mul, ← EReal.coe_sub]
  exact congrArg _ (real_var (fun i => r i j) 65536 hcard hN0)

end Cert.Spec

end
-- ==== Proof.Finite.lean ====
/-
  The precondition says every entry of every float input is finite; read for the data array it says that every entry
  is a real number.
-/
import proofs.«123519_j64699387347198_1_alg».proof.Pre_finite_inputs
import proofs.«123519_j64699387347198_1_alg».proof.Proof.Spec
import Idealize.ShloMosaic.Lib.ReduceAll

noncomputable section

namespace Cert.Finite

open Idealize.ShloMosaic Cert.Pre_finite_inputs

/-- The binary32 word of plus infinity denotes the top of the extended reals. -/
theorem ofBits_inf : Ideal.ofBits .f32 0x7F800000#32 = (⊤ : EReal) := by
  simp [Ideal.ofBits, Ideal.ieee]

/-- An extended real whose absolute value lies below the top is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has a single index. -/
instance : Subsingleton S_.Idx := ⟨fun a b => funext fun d => d.elim0⟩

/-- Under the precondition every entry of the data array is a real number. -/
theorem finite_x [Cert.Pre_finite_inputs.Facts] (x0 : FVec Ideal S65536x256 .f32) (x1 x2 : FVec Ideal S256 .f32)
    (x3 : FVec Ideal S512x256 .f32) (x4 : FVec Ideal S512 .f32) (x5 : FVec Ideal S2048x512 .f32)
    (x6 : FVec Ideal S2048 .f32) (x7 : FVec Ideal S256x2048 .f32) (x8 : FVec Ideal S256 .f32)
    (h : fn (F := Ideal) x0 x1 x2 x3 x4 x5 x6 x7 x8 = fun _ => 1#1) (i : Fin 65536) (j : Fin 256) :
    ∃ r : ℝ, Cert.Spec.mat x0 i j = (r : EReal) := by
  have h0 := congrFun h ValueIdx.ix0
  dsimp only [fn, fn_part1, fn_part2] at h0
  have e1 := (IntOp.andi_eq_one.1 h0).1
  have e2 := (IntOp.andi_eq_one.1 e1).1
  have e3 := (IntOp.andi_eq_one.1 e2).1
  have e4 := (IntOp.andi_eq_one.1 e3).1
  have e5 := (IntOp.andi_eq_one.1 e4).1
  have e6 := (IntOp.andi_eq_one.1 e5).1
  have e7 := (IntOp.andi_eq_one.1 e6).1
  have e8 := (IntOp.andi_eq_one.1 e7).1
  have hp := Host.reduce_andi_all _ _ _ _ _ e8 (ValueIdx.ix2 i j)
  have hc : Ideal.cmp .olt (max (x0 (ValueIdx.ix2 i j)) (-(x0 (ValueIdx.ix2 i j)))) (Ideal.ofBits .f32 0x7F800000#32)
      = 1#1 := hp
  rw [ofBits_inf] at hc
  unfold Cert.Spec.mat
  refine real_of_abs_lt_top _ ?_
  by_contra hn
  simp [Ideal.cmp, hn] at hc

end Cert.Finite

end
-- ==== Proof.RefValue.lean ====
/-
  The reference program, read entry by entry: its two results are the specification's functions of the argument
  arrays, the variance being the mean of the squared deviations.
-/
import proofs.«123519_j64699387347198_1_alg».proof.Proof.Gen.ReferenceIdeal.Read
import proofs.«123519_j64699387347198_1_alg».proof.Proof.Spec

noncomputable section

namespace Cert.RefValue

open Idealize.ShloMosaic Idealize.ShloMosaic.ValueIdx Cert.ReferenceIdeal Cert.ReferenceIdeal.Read Cert.Spec

/-! ## Where each stage reads its operands, at explicit coordinates -/

/-- Summing over the rows: term `k` of column `j` is the entry `(k, j)`. -/
private theorem red0 (j : Fin 256) (k : Fin 65536) : idx_main_v0 (ix1 j) k = ix2 k j :=
  funext fun a => Fin.ext (by match a with | ⟨0, _⟩ => rfl | ⟨1, _⟩ => rfl)
private theorem red7 (j : Fin 256) (k : Fin 65536) : idx_main_v7 (ix1 j) k = ix2 k j :=
  funext fun a => Fin.ext (by match a with | ⟨0, _⟩ => rfl | ⟨1, _⟩ => rfl)

/-- A per-column vector spread over the rows is read at the column. -/
private theorem bc4 (i : Fin 65536) (j : Fin 256) : idx_main_v3 (idx_main_v4 (ix2 i j)) = ix1 j :=
  funext fun a => Fin.ext (by match a with | ⟨0, _⟩ => rfl)
private theorem bc11 (i : Fin 65536) (j : Fin 256) : idx_main_v10 (idx_main_v11 (ix2 i j)) = ix1 j :=
  funext fun a => Fin.ext (by match a with | ⟨0, _⟩ => rfl)
private theorem bc17 (i : Fin 65536) (j : Fin 256) : idx_main_v16 (idx_main_v17 (ix2 i j)) = ix1 j :=
  funext fun a => Fin.ext (by match a with | ⟨0, _⟩ => rfl)
private theorem bc20 (i : Fin 65536) (j : Fin 256) : idx_main_v19 (idx_main_v20 (ix2 i j)) = ix1 j :=
  funext fun a => Fin.ext (by match a with | ⟨0, _⟩ => rfl)
private theorem bc23 (i : Fin 65536) (j : Fin 256) : idx_main_v22 (idx_main_v23 (ix2 i j)) = ix1 j :=
  funext fun a => Fin.ext (by match a with | ⟨0, _⟩ => rfl)
private theorem bc29 (i : Fin 65536) (o : Fin 512) : idx_main_v28 (idx_main_v29 (ix2 i o)) = ix1 o :=
  funext fun a => Fin.ext (by match a with | ⟨0, _⟩ => rfl)
private theorem bc34 (i : Fin 65536) (o : Fin 2048) : idx_main_v33 (idx_main_v34 (ix2 i o)) = ix1 o :=
  funext fun a => Fin.ext (by match a with | ⟨0, _⟩ => rfl)
private theorem bc39 (i : Fin 65536) (j : Fin 256) : idx_main_v38 (idx_main_v39 (ix2 i j)) = ix1 j :=
  funext fun a => Fin.ext (by match a with | ⟨0, _⟩ => rfl)

/-- A transposed array at `(k, o)` is the array at `(o, k)`. -/
private theorem tr26 (k : Fin 256) (o : Fin 512) : idx_main_v26 (ix2 k o) = ix2 o k :=
  funext fun a => Fin.ext (by match a with | ⟨0, _⟩ => rfl | ⟨1, _⟩ => rfl)
private theorem tr31 (k : Fin 512) (o : Fin 2048) : idx_main_v31 (ix2 k o) = ix2 o k :=
  funext fun a => Fin.ext (by match a with | ⟨0, _⟩ => rfl | ⟨1, _⟩ => rfl)
private theorem tr36 (k : Fin 2048) (o : Fin 256) : idx_main_v36 (ix2 k o) = ix2 o k :=
  funext fun a => Fin.ext (by match a with | ⟨0, _⟩ => rfl | ⟨1, _⟩ => rfl)

/-- Term `k` of the product at `(i, o)` reads the left factor at `(i, k)` and the right one at `(k, o)`. -/
private theorem dl27 (i : Fin 65536) (o : Fin 512) (k : Fin 256) : lidx_main_v27 (ix2 i o) k = ix2 i k :=
  funext fun a => Fin.ext (by match a with | ⟨0, _⟩ => rfl | ⟨1, _⟩ => rfl)
private theorem dr27 (i : Fin 65536) (o : Fin 512) (k : Fin 256) : ridx_main_v27 (ix2 i o) k = ix2 k o :=
  funext fun a => Fin.ext (by match a with | ⟨0, _⟩ => rfl | ⟨1, _⟩ => rfl)
private theorem dl32 (i : Fin 65536) (o : Fin 2048) (k : Fin 512) : lidx_main_v32 (ix2 i o) k = ix2 i k :=
  funext fun a => Fin.ext (by match a with | ⟨0, _⟩ => rfl | ⟨1, _⟩ => rfl)
private theorem dr32 (i : Fin 65536) (o : Fin 2048) (k : Fin 512) : ridx_main_v32 (ix2 i o) k = ix2 k o :=
  funext fun a => Fin.ext (by match a with | ⟨0, _⟩ => rfl | ⟨1, _⟩ => rfl)
private theorem dl37 (i : Fin 65536) (o : Fin 256) (k : Fin 2048) : lidx_main_v37 (ix2 i o) k = ix2 i k :=
  funext fun a => Fin.ext (by match a with | ⟨0, _⟩ => rfl | ⟨1, _⟩ => rfl)
private theorem dr37 (i : Fin 65536) (o : Fin 256) (k : Fin 2048) : ridx_main_v37 (ix2 i o) k = ix2 k o :=
  funext fun a => Fin.ext (by match a with | ⟨0, _⟩ => rfl | ⟨1, _⟩ => rfl)

/-! ## The batch statistics -/

theorem v0_eq (x0 : FVec Ideal S65536x256 .f32) (j : Fin 256) :
    val_main_v0 (F := Ideal) x0 (ix1 j) = colSum (mat x0) j := by
  rw [val_main_v0_apply, val_main_cst_apply, Ideal.ofBits_def, Ideal.ofBits_zero_f32, zero_add]
  exact Finset.sum_congr rfl fun k _ => congrArg x0 (red0 j k)

theorem v1_eq (j : Fin 256) : val_main_v1 (F := Ideal) (ix1 j) = cN := by
  rw [val_main_v1_apply, val_main_cst_0_apply]; rfl

theorem v2_eq (x0 : FVec Ideal S65536x256 .f32) (j : Fin 256) :
    val_main_v2 (F := Ideal) x0 (ix1 j) = mean (mat x0) j := by
  rw [val_main_v2_apply, Ideal.hostDivf_def, v0_eq, v1_eq]; rfl

theorem v4_eq (x0 : FVec Ideal S65536x256 .f32) (i : Fin 65536) (j : Fin 256) :
    val_main_v4 (F := Ideal) x0 (ix2 i j) = mean (mat x0) j := by
  rw [val_main_v4_apply, val_main_v3_apply, bc4, v2_eq]

theorem v5_eq (x0 : FVec Ideal S65536x256 .f32) (i : Fin 65536) (j : Fin 256) :
    val_main_v5 (F := Ideal) x0 (ix2 i j) = mat x0 i j - mean (mat x0) j := by
  rw [val_main_v5_apply, Ideal.subf_def, v4_eq]; rfl

theorem v6_eq (x0 : FVec Ideal S65536x256 .f32) (i : Fin 65536) (j : Fin 256) :
    val_main_v6 (F := Ideal) x0 (ix2 i j)
      = (mat x0 i j - mean (mat x0) j) * (mat x0 i j - mean (mat x0) j) := by
  rw [val_main_v6_apply, Ideal.mulf_def, v5_eq]

theorem v7_eq (x0 : FVec Ideal S65536x256 .f32) (j : Fin 256) :
    val_main_v7 (F := Ideal) x0 (ix1 j)
      = ∑ r : Fin 65536, (mat x0 r j - mean (mat x0) j) * (mat x0 r j - mean (mat x0) j) := by
  rw [val_main_v7_apply, val_main_cst_1_apply, Ideal.ofBits_def, Ideal.ofBits_zero_f32, zero_add]
  exact Finset.sum_congr rfl fun k _ => by rw [red7, v6_eq]

theorem v8_eq (j : Fin 256) : val_main_v8 (F := Ideal) (ix1 j) = cN := by
  rw [val_main_v8_apply, val_main_cst_2_apply]; rfl

theorem v9_eq (x0 : FVec Ideal S65536x256 .f32) (j : Fin 256) :
    val_main_v9 (F := Ideal) x0 (ix1 j) = varR (mat x0) j := by
  rw [val_main_v9_apply, Ideal.hostDivf_def, v7_eq, v8_eq]; rfl

/-! ## The normalised entry -/

theorem v12_eq (x0 : FVec Ideal S65536x256 .f32) (i : Fin 65536) (j : Fin 256) :
    val_main_v12 (F := Ideal) x0 (ix2 i j) = mat x0 i j - mean (mat x0) j := by
  rw [val_main_v12_apply, Ideal.subf_def, val_main_v11_apply, val_main_v10_apply, bc11, v2_eq]; rfl

theorem v13_eq (j : Fin 256) : val_main_v13 (F := Ideal) (ix1 j) = eps := by
  rw [val_main_v13_apply, val_main_cst_3_apply]; rfl

theorem v15_eq (x0 : FVec Ideal S65536x256 .f32) (j : Fin 256) :
    val_main_v15 (F := Ideal) x0 (ix1 j) = Ideal.rsqrt (varR (mat x0) j + eps) := by
  rw [val_main_v15_apply, Ideal.hostUnary_rsqrt_def, val_main_v14_apply, Ideal.addf_def, v9_eq, v13_eq]

theorem v18_eq (x0 : FVec Ideal S65536x256 .f32) (i : Fin 65536) (j : Fin 256) :
    val_main_v18 (F := Ideal) x0 (ix2 i j)
      = (mat x0 i j - mean (mat x0) j) * Ideal.rsqrt (varR (mat x0) j + eps) := by
  rw [val_main_v18_apply, Ideal.mulf_def, v12_eq, val_main_v17_apply, val_main_v16_apply, bc17, v15_eq]

theorem v24_eq (x0 : FVec Ideal S65536x256 .f32) (x1 x2 : FVec Ideal S256 .f32) (i : Fin 65536) (j : Fin 256) :
    val_main_v24 (F := Ideal) x0 x1 x2 (ix2 i j)
      = xn (mat x0) (mean (mat x0)) (varR (mat x0)) (vec x1) (vec x2) i j := by
  rw [val_main_v24_apply, Ideal.addf_def, val_main_v21_apply, Ideal.mulf_def, v18_eq,
    val_main_v20_apply, val_main_v19_apply, bc20, val_main_v23_apply, val_main_v22_apply, bc23]
  rfl

/-- The reference's second result: the hyperbolic tangent of the normalised entry. -/
theorem ref_raw (x0 : FVec Ideal S65536x256 .f32) (x1 x2 : FVec Ideal S256 .f32) (i : Fin 65536) (j : Fin 256) :
    val_main_v25 (F := Ideal) x0 x1 x2 (ix2 i j)
      = raw (mat x0) (mean (mat x0)) (varR (mat x0)) (vec x1) (vec x2) i j := by
  rw [val_main_v25_apply, Ideal.hostUnary_tanh_def, v24_eq]; rfl

/-! ## The three layers -/

theorem v26_eq (x3 : FVec Ideal S512x256 .f32) (k : Fin 256) (o : Fin 512) :
    val_main_v26 (F := Ideal) x3 (ix2 k o) = mat x3 o k := by
  rw [val_main_v26_apply, tr26]; rfl

theorem v30_eq (x0 : FVec Ideal S65536x256 .f32) (x1 x2 : FVec Ideal S256 .f32) (x3 : FVec Ideal S512x256 .f32)
    (x4 : FVec Ideal S512 .f32) (i : Fin 65536) (o : Fin 512) :
    val_main_v30 (F := Ideal) x0 x1 x2 x3 x4 (ix2 i o)
      = layer (xn (mat x0) (mean (mat x0)) (varR (mat x0)) (vec x1) (vec x2) i) (mat x3) (vec x4) o := by
  rw [val_main_v30_apply, Ideal.addf_def, val_main_v27_apply, val_main_v29_apply, val_main_v28_apply, bc29]
  refine congrArg₂ (· + ·) (Finset.sum_congr rfl fun k _ => ?_) rfl
  rw [dl27, dr27, v24_eq, v26_eq]

theorem v31_eq (x5 : FVec Ideal S2048x512 .f32) (k : Fin 512) (o : Fin 2048) :
    val_main_v31 (F := Ideal) x5 (ix2 k o) = mat x5 o k := by
  rw [val_main_v31_apply, tr31]; rfl

theorem v35_eq (x0 : FVec Ideal S65536x256 .f32) (x1 x2 : FVec Ideal S256 .f32) (x3 : FVec Ideal S512x256 .f32)
    (x4 : FVec Ideal S512 .f32) (x5 : FVec Ideal S2048x512 .f32) (x6 : FVec Ideal S2048 .f32)
    (i : Fin 65536) (o : Fin 2048) :
    val_main_v35 (F := Ideal) x0 x1 x2 x3 x4 x5 x6 (ix2 i o)
      = layer (layer (xn (mat x0) (mean (mat x0)) (varR (mat x0)) (vec x1) (vec x2) i) (mat x3) (vec x4))
          (mat x5) (vec x6) o := by
  rw [val_main_v35_apply, Ideal.addf_def, val_main_v32_apply, val_main_v34_apply, val_main_v33_apply, bc34]
  refine congrArg₂ (· + ·) (Finset.sum_congr rfl fun k _ => ?_) rfl
  rw [dl32, dr32, v30_eq, v31_eq]

theorem v36_eq (x7 : FVec Ideal S256x2048 .f32) (k : Fin 2048) (o : Fin 256) :
    val_main_v36 (F := Ideal) x7 (ix2 k o) = mat x7 o k := by
  rw [val_main_v36_apply, tr36]; rfl

theorem v40_eq (x0 : FVec Ideal S65536x256 .f32) (x1 x2 : FVec Ideal S256 .f32) (x3 : FVec Ideal S512x256 .f32)
    (x4 : FVec Ideal S512 .f32) (x5 : FVec Ideal S2048x512 .f32) (x6 : FVec Ideal S2048 .f32)
    (x7 : FVec Ideal S256x2048 .f32) (x8 : FVec Ideal S256 .f32) (i : Fin 65536) (j : Fin 256) :
    val_main_v40 (F := Ideal) x0 x1 x2 x3 x4 x5 x6 x7 x8 (ix2 i j)
      = layer (layer (layer (xn (mat x0) (mean (mat x0)) (varR (mat x0)) (vec x1) (vec x2) i) (mat x3) (vec x4))
          (mat x5) (vec x6)) (mat x7) (vec x8) j := by
  rw [val_main_v40_apply, Ideal.addf_def, val_main_v37_apply, val_main_v39_apply, val_main_v38_apply, bc39]
  refine congrArg₂ (· + ·) (Finset.sum_congr rfl fun k _ => ?_) rfl
  rw [dl37, dr37, v35_eq, v36_eq]

/-- The reference's result after the three layers. -/
theorem ref_out (x0 : FVec Ideal S65536x256 .f32) (x1 x2 : FVec Ideal S256 .f32) (x3 : FVec Ideal S512x256 .f32)
    (x4 : FVec Ideal S512 .f32) (x5 : FVec Ideal S2048x512 .f32) (x6 : FVec Ideal S2048 .f32)
    (x7 : FVec Ideal S256x2048 .f32) (x8 : FVec Ideal S256 .f32) (i : Fin 65536) (j : Fin 256) :
    val_main_v41 (F := Ideal) x0 x1 x2 x3 x4 x5 x6 x7 x8 (ix2 i j)
      = out (mat x0) (mean (mat x0)) (varR (mat x0)) (vec x1) (vec x2) (mat x3) (vec x4) (mat x5) (vec x6) (mat x7) (vec x8) i j := by
  rw [val_main_v41_apply, Ideal.hostUnary_tanh_def, v40_eq]; rfl

end Cert.RefValue

end
-- ==== Proof.KI.Stats.lean ====
/-
  The statistics kernel: sixteen grid points each add the column sums (and the column sums of squares) of a block of
  4096 rows into a one-row accumulator that is reset at the first point and written back after the last; the two
  arrays it leaves are the column sums and the column sums of squares over all 65536 rows.
-/
import proofs.«123519_j64699387347198_1_alg».proof.Proof.Gen.KernelIdeal.Frame
import proofs.«123519_j64699387347198_1_alg».proof.Proof.Spec
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen

/-! ## What one grid point leaves in the two accumulator rows -/

section Pieces
variable {F : FTy → Type} [FloatOps F]

theorem hz : (![0, 0] : Fin 2 → Nat) = fun _ => 0 := funext fun a => by fin_cases a <;> rfl

/-- A later point: the first accumulator row `xo1` plus the column sums of the block `x`. -/
theorem out_B_1 (c : Dev nD) (i : grid0.Coords) (a1 : Memref sig .tc .vmem S4096x256 .f32) (h1 : a1.IsWhole)
    (a2 : Memref sig .tc .vmem S1x256 .f32) (h2 : a2.IsWhole) (a3 : Memref sig .tc .vmem S1x256 .f32) (h3 : a3.IsWhole)
    (hc : ¬cond0_0 i) (x : Vec F S4096x256 .f32) (xo1 xo2 : Vec F S1x256 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, h3.read_unread, View.ld_unit_zero (S := S1x256) hz,
    View.ld_unit_zero (S := S4096x256) hz]

/-- A later point: the second accumulator row `xo2` plus the column sums of squares of the block `x`. -/
theorem out_B_2 (c : Dev nD) (i : grid0.Coords) (a1 : Memref sig .tc .vmem S4096x256 .f32) (h1 : a1.IsWhole)
    (a2 : Memref sig .tc .vmem S1x256 .f32) (h2 : a2.IsWhole) (a3 : Memref sig .tc .vmem S1x256 .f32) (h3 : a3.IsWhole)
    (hc : ¬cond0_0 i) (x : Vec F S4096x256 .f32) (xo1 xo2 : Vec F S1x256 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h2.read_unread, h3.read_unread, View.ld_unit_zero (S := S1x256) hz,
    View.ld_unit_zero (S := S4096x256) hz]

/-- The first point: the first row is reset to zero, read back, and the block's column sums are added. -/
theorem out_A_1 (c : Dev nD) (i : grid0.Coords) (a1 : Memref sig .tc .vmem S4096x256 .f32) (h1 : a1.IsWhole)
    (a2 : Memref sig .tc .vmem S1x256 .f32) (h2 : a2.IsWhole) (a3 : Memref sig .tc .vmem S1x256 .f32) (h3 : a3.IsWhole)
    (hc : cond0_0 i) (x : Vec F S4096x256 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x256) hz, View.readCov_unit_zero (S := S1x256) _ hz]
  simp only [View.readAt_eq_ld, h1.read_unread, View.ld_unit_zero (S := S1x256) hz,
    View.ld_unit_zero (S := S4096x256) hz]

/-- The first point: the second row is reset to zero, read back, and the block's column sums of squares are added. -/
theorem out_A_2 (c : Dev nD) (i : grid0.Coords) (a1 : Memref sig .tc .vmem S4096x256 .f32) (h1 : a1.IsWhole)
    (a2 : Memref sig .tc .vmem S1x256 .f32) (h2 : a2.IsWhole) (a3 : Memref sig .tc .vmem S1x256 .f32) (h3 : a3.IsWhole)
    (hc : cond0_0 i) (x : Vec F S4096x256 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x256) hz, View.readCov_unit_zero (S := S1x256) _ hz]
  simp only [View.readAt_eq_ld, h1.read_unread, View.ld_unit_zero (S := S1x256) hz,
    View.ld_unit_zero (S := S4096x256) hz]

end Pieces

/-! ## The payloads read at a column, over the extended reals -/

section Payload

/-- The reduced axis put back: row `p` of column `q`. -/
theorem lift_eq (q : Fin 256) (p : Fin 4096) :
    reduces_S4096x256_S256.lift (ix1 q) p = (ix2 p q : S4096x256.Idx) := by
  funext a
  apply Fin.ext
  match a with
  | ⟨0, _⟩ => rfl
  | ⟨1, _⟩ => rfl

/-- The zero row reads zero. -/
theorem pay1_apply (q : Fin 256) : k0_pay1 (F := Ideal) (ix2 (0 : Fin 1) q) = 0 := Ideal.ofBits_zero_f32
theorem pay2_apply (q : Fin 256) : k0_pay2 (F := Ideal) (ix2 (0 : Fin 1) q) = 0 := Ideal.ofBits_zero_f32

/-- The updated first row at column `q`: the old entry plus the sum of column `q` of the block. -/
theorem pay3_apply (x : FVec Ideal S4096x256 .f32) (xo : FVec Ideal S1x256 .f32) (q : Fin 256) :
    k0_pay3 (F := Ideal) x xo (ix2 (0 : Fin 1) q) = xo (ix2 (0 : Fin 1) q) + ∑ p : Fin 4096, x (ix2 p q) := by
  unfold k0_pay3
  refine (addf_apply _ _ _).trans ?_
  refine congrArg₂ (· + ·) (congrFun (shapeCast_self xo shapeCasts_S1x256_S1x256) _) ?_
  refine (shapeCast_a_1a_apply _ shapeCasts_S256_S1x256 (0 : Fin 1) q).trans ?_
  refine (Ideal.multiReduction_add_single x 0x00000000#32 reduces_S4096x256_S256 (.inl rfl) rfl (ix1 q)).trans ?_
  exact Finset.sum_congr rfl fun p _ => congrArg x (lift_eq q p)

/-- The updated second row at column `q`: the old entry plus the sum of the squares of column `q` of the block. -/
theorem pay4_apply (x : FVec Ideal S4096x256 .f32) (xo : FVec Ideal S1x256 .f32) (q : Fin 256) :
    k0_pay4 (F := Ideal) x xo (ix2 (0 : Fin 1) q)
      = xo (ix2 (0 : Fin 1) q) + ∑ p : Fin 4096, x (ix2 p q) * x (ix2 p q) := by
  unfold k0_pay4
  refine (addf_apply _ _ _).trans ?_
  refine congrArg₂ (· + ·) (congrFun (shapeCast_self xo shapeCasts_S1x256_S1x256) _) ?_
  refine (shapeCast_a_1a_apply _ shapeCasts_S256_S1x256 (0 : Fin 1) q).trans ?_
  refine (Ideal.multiReduction_add_single (mulf x x) 0x00000000#32 reduces_S4096x256_S256 (.inl rfl) rfl (ix1 q)).trans ?_
  exact Finset.sum_congr rfl fun p _ => (mulf_apply x x _).trans (by rw [lift_eq q p])

end Payload

variable (V : (c : Dev nD) → (b : Ref sig .tc) → Buf (Elt Ideal) ((c : Thread nD τ).loc b))

/-! ## The data block of a grid point, and the running sums -/

/-- The block of 4096 rows the data window presents at point `t`. -/
abbrev xblk (c : Dev nD) (t : Fin cfg0.N) : FVec Ideal S4096x256 .f32 := iblk0 V c 0 t

/-- Entry `(k, q)` of the data, zero past the last row: the summand of the running sums. -/
def colAt (c : Dev nD) (q : Fin 256) (k : ℕ) : EReal :=
  if h : k < 65536 then Cert.Spec.mat (V c main_arg0) ⟨k, h⟩ q else 0

theorem colAt_of_lt (c : Dev nD) (q : Fin 256) (k : ℕ) (h : k < 65536) :
    colAt V c q k = Cert.Spec.mat (V c main_arg0) ⟨k, h⟩ q := dif_pos h

/-- The window's block index at point `t` is `(t, 0)`. -/
theorem index0 (t : Fin cfg0.N) : win0_0.index t 0 = t.val ∧ win0_0.index t 1 = 0 :=
  (by decide +kernel : ∀ t : Fin grid0.N, win0_0.index t 0 = t.val ∧ win0_0.index t 1 = 0) t

/-- Row `p` of the block at point `t` is row `4096 t + p` of the data. -/
theorem xblk_apply (c : Dev nD) (t : Fin cfg0.N) (p : Fin 4096) (q : Fin 256) :
    xblk V c t (ix2 p q) = colAt V c q (4096 * t.val + p.val) := by
  have hN : t.val < 16 := lt_of_lt_of_eq t.isLt (show cfg0.N = 16 from N_0)
  have hp : 4096 * t.val + p.val < 65536 := by have := p.isLt; omega
  rw [colAt_of_lt V c q _ hp]
  unfold Cert.Spec.mat
  show iblk0 V c 0 t (ix2 p q) = _
  unfold iblk0
  rw [View.read_apply]
  show V c main_arg0 _ = V c main_arg0 _
  congr 1
  funext a
  apply Fin.ext
  match a with
  | ⟨0, _⟩ => show win0_0.index t 0 * 4096 + 1 * p.val = 4096 * t.val + p.val; rw [(index0 t).1]; omega
  | ⟨1, _⟩ => show win0_0.index t 1 * 256 + 1 * q.val = q.val; rw [(index0 t).2]; omega

/-- The sum of column `q` over the block at point `t` is the sum of the data over rows `4096 t … 4096 t + 4095`. -/
theorem blk_sum (c : Dev nD) (q : Fin 256) (t : Fin cfg0.N) :
    ∑ p : Fin 4096, xblk V c t (ix2 p q) = ∑ i ∈ Finset.range 4096, colAt V c q (4096 * t.val + i) :=
  (Finset.sum_congr rfl fun p _ => xblk_apply V c t p q).trans
    (Fin.sum_univ_eq_sum_range (fun i => colAt V c q (4096 * t.val + i)) 4096)

theorem blk_sumsq (c : Dev nD) (q : Fin 256) (t : Fin cfg0.N) :
    ∑ p : Fin 4096, xblk V c t (ix2 p q) * xblk V c t (ix2 p q)
      = ∑ i ∈ Finset.range 4096, colAt V c q (4096 * t.val + i) * colAt V c q (4096 * t.val + i) :=
  (Finset.sum_congr rfl fun p _ => by rw [xblk_apply V c t p q]).trans
    (Fin.sum_univ_eq_sum_range (fun i => colAt V c q (4096 * t.val + i) * colAt V c q (4096 * t.val + i)) 4096)

/-! ## The accumulator rows after each point -/

/-- The first point leaves, in the first row, the column sums of the first block. -/
theorem first_1 (c : Dev nD) (q : Fin 256) (t : Fin cfg0.N) (hc : cond0_0 (grid0.coords t)) :
    out0_A_1 (F := Ideal) c (grid0.coords t) (ms0_0 t) (hs0_0 t) (ms0_1 t) (hs0_1 t) (ms0_2 t) (hs0_2 t) hc (iblk0 V c 0 t)
        (ix2 (0 : Fin 1) q)
      = 0 + ∑ i ∈ Finset.range 4096, colAt V c q (4096 * t.val + i) :=
  (congrFun (out_A_1 (F := Ideal) c (grid0.coords t) (ms0_0 t) (hs0_0 t) (ms0_1 t) (hs0_1 t) (ms0_2 t) (hs0_2 t) hc
    (xblk V c t)) (ix2 (0 : Fin 1) q)).trans
    ((pay3_apply (xblk V c t) (k0_pay1 (F := Ideal)) q).trans (congrArg₂ (· + ·) (pay1_apply q) (blk_sum V c q t)))

/-- The first point leaves, in the second row, the column sums of squares of the first block. -/
theorem first_2 (c : Dev nD) (q : Fin 256) (t : Fin cfg0.N) (hc : cond0_0 (grid0.coords t)) :
    out0_A_2 (F := Ideal) c (grid0.coords t) (ms0_0 t) (hs0_0 t) (ms0_1 t) (hs0_1 t) (ms0_2 t) (hs0_2 t) hc (iblk0 V c 0 t)
        (ix2 (0 : Fin 1) q)
      = 0 + ∑ i ∈ Finset.range 4096, colAt V c q (4096 * t.val + i) * colAt V c q (4096 * t.val + i) :=
  (congrFun (out_A_2 (F := Ideal) c (grid0.coords t) (ms0_0 t) (hs0_0 t) (ms0_1 t) (hs0_1 t) (ms0_2 t) (hs0_2 t) hc
    (xblk V c t)) (ix2 (0 : Fin 1) q)).trans
    ((pay4_apply (xblk V c t) (k0_pay2 (F := Ideal)) q).trans (congrArg₂ (· + ·) (pay2_apply q) (blk_sumsq V c q t)))

/-- A later point adds the column sums of its block to the first row. -/
theorem step_1 (c : Dev nD) (q : Fin 256) (t : Fin cfg0.N) (hc : ¬cond0_0 (grid0.coords t))
    (xo1 xo2 : FVec Ideal S1x256 .f32) :
    out0_B_1 (F := Ideal) c (grid0.coords t) (ms0_0 t) (hs0_0 t) (ms0_1 t) (hs0_1 t) (ms0_2 t) (hs0_2 t) hc (iblk0 V c 0 t)
        xo1 xo2 (ix2 (0 : Fin 1) q)
      = xo1 (ix2 (0 : Fin 1) q) + ∑ i ∈ Finset.range 4096, colAt V c q (4096 * t.val + i) :=
  (congrFun (out_B_1 (F := Ideal) c (grid0.coords t) (ms0_0 t) (hs0_0 t) (ms0_1 t) (hs0_1 t) (ms0_2 t) (hs0_2 t) hc
    (xblk V c t) xo1 xo2) (ix2 (0 : Fin 1) q)).trans
    ((pay3_apply (xblk V c t) xo1 q).trans (congrArg (xo1 (ix2 (0 : Fin 1) q) + ·) (blk_sum V c q t)))

/-- A later point adds the column sums of squares of its block to the second row. -/
theorem step_2 (c : Dev nD) (q : Fin 256) (t : Fin cfg0.N) (hc : ¬cond0_0 (grid0.coords t))
    (xo1 xo2 : FVec Ideal S1x256 .f32) :
    out0_B_2 (F := Ideal) c (grid0.coords t) (ms0_0 t) (hs0_0 t) (ms0_1 t) (hs0_1 t) (ms0_2 t) (hs0_2 t) hc (iblk0 V c 0 t)
        xo1 xo2 (ix2 (0 : Fin 1) q)
      = xo2 (ix2 (0 : Fin 1) q)
        + ∑ i ∈ Finset.range 4096, colAt V c q (4096 * t.val + i) * colAt V c q (4096 * t.val + i) :=
  (congrFun (out_B_2 (F := Ideal) c (grid0.coords t) (ms0_0 t) (hs0_0 t) (ms0_1 t) (hs0_1 t) (ms0_2 t) (hs0_2 t) hc
    (xblk V c t) xo1 xo2) (ix2 (0 : Fin 1) q)).trans
    ((pay4_apply (xblk V c t) xo2 q).trans (congrArg (xo2 (ix2 (0 : Fin 1) q) + ·) (blk_sumsq V c q t)))

/-- After point `n` the two rows hold, in column `q`, the sum and the sum of squares of column `q` over the first
    `4096 (n + 1)` rows of the data: by induction on the point. -/
theorem acc_eq (c : Dev nD) (q : Fin 256) : ∀ (n : ℕ) (h : n < cfg0.N),
    (outsAt0 V c n h).1 (ix2 (0 : Fin 1) q) = ∑ k ∈ Finset.range (4096 * (n + 1)), colAt V c q k
    ∧ (outsAt0 V c n h).2 (ix2 (0 : Fin 1) q) = ∑ k ∈ Finset.range (4096 * (n + 1)), colAt V c q k * colAt V c q k
  | 0, h => by
    rw [outsAt0_A V c ⟨0, h⟩ rfl]
    dsimp only
    refine ⟨(first_1 V c q ⟨0, h⟩ _).trans ?_, (first_2 V c q ⟨0, h⟩ _).trans ?_⟩
    · rw [zero_add]; exact Finset.sum_congr rfl fun i _ => by rw [Nat.mul_zero, Nat.zero_add]
    · rw [zero_add]; exact Finset.sum_congr rfl fun i _ => by rw [Nat.mul_zero, Nat.zero_add]
  | n + 1, h => by
    have hN : cfg0.N = 16 := N_0
    have hB : ¬(⟨n + 1, h⟩ : Fin cfg0.N).val % 16 = 0 := by dsimp only; omega
    obtain ⟨ih1, ih2⟩ := acc_eq c q n (Nat.lt_of_succ_lt h)
    rw [outsAt0_B V c ⟨n + 1, h⟩ hB]
    dsimp only
    refine ⟨(step_1 V c q ⟨n + 1, h⟩ _ _ _).trans ?_, (step_2 V c q ⟨n + 1, h⟩ _ _ _).trans ?_⟩
    · show (outsAt0 V c n _).1 (ix2 (0 : Fin 1) q) + _ = _
      rw [ih1, show 4096 * (n + 1 + 1) = 4096 * (n + 1) + 4096 from by omega, Finset.sum_range_add]
    · show (outsAt0 V c n _).2 (ix2 (0 : Fin 1) q) + _ = _
      rw [ih2, show 4096 * (n + 1 + 1) = 4096 * (n + 1) + 4096 from by omega, Finset.sum_range_add]

/-! ## The two result arrays -/

theorem last_lt : 15 < cfg0.N := by rw [show cfg0.N = 16 from N_0]; decide

/-- The first accumulator row after the last point, as contents of the first result array. -/
abbrev res1 (c : Dev nD) : Buf (Elt Ideal) ((c : Thread nD τ).loc main_v0_0) := (outsAt0 V c 15 last_lt).1
/-- The second accumulator row after the last point, as contents of the second result array. -/
abbrev res2 (c : Dev nD) : Buf (Elt Ideal) ((c : Thread nD τ).loc main_v0_1) := (outsAt0 V c 15 last_lt).2

/-- A point that writes a result row back is the last one. -/
theorem eq_last (t : Fin cfg0.N) (h : t.val % 16 = 15) : t = t0_15 := by
  have hN : cfg0.N = 16 := N_0
  have := t.isLt
  exact Fin.ext (show t.val = 15 by omega)

/-- The one write-back of the first row writes the row after the last point; its block is the whole array. -/
theorem flushed_1 (c : Dev nD) (t : Fin cfg0.N) (hf : (cfg0.win 1).flush t = true) :
    (dat0 V c).flushed 1 t = ((cfg0.win 1).blk t).view.read (Elt Ideal) (res1 V c) := by
  obtain rfl : t = t0_15 := eq_last t ((flush0_1 t).mp hf)
  show (cfg0.win 1).cut (grid0.coords t0_15) ((dat0 V c).after 1 t0_15) = _
  rw [after0_1]
  have hoff : (fun a => win0_1.index t0_15 a * main_v0_0.ty.shape.size a) = fun _ => 0 :=
    funext fun a => by fin_cases a <;> decide
  exact (Memref.read_access_unit_zero (Elt Ideal) main_v0_0 hoff (fun a => by rw [congrFun hoff a]; simp) (res1 V c)).symm

/-- The one write-back of the second row likewise. -/
theorem flushed_2 (c : Dev nD) (t : Fin cfg0.N) (hf : (cfg0.win 2).flush t = true) :
    (dat0 V c).flushed 2 t = ((cfg0.win 2).blk t).view.read (Elt Ideal) (res2 V c) := by
  obtain rfl : t = t0_15 := eq_last t ((flush0_2 t).mp hf)
  show (cfg0.win 2).cut (grid0.coords t0_15) ((dat0 V c).after 2 t0_15) = _
  rw [after0_2]
  have hoff : (fun a => win0_2.index t0_15 a * main_v0_1.ty.shape.size a) = fun _ => 0 :=
    funext fun a => by fin_cases a <;> decide
  exact (Memref.read_access_unit_zero (Elt Ideal) main_v0_1 hoff (fun a => by rw [congrFun hoff a]; simp) (res2 V c)).symm

/-- Every index of a one-row array of 256 columns lies in a block that starts at `(0, 0)` and has extents `(1, 256)`. -/
theorem mem_row {off size : Fin 2 → Nat} {inb} (i : S1x256.Idx) (ho : ∀ a, off a = 0) (h0 : size 0 = 1) (h1 : size 1 = 256) :
    i ∈ (Rect.unit (s := S1x256) off size inb).set := by
  rw [Rect.mem_set_unit]
  have hi0 : (i 0).val < 1 := idx2_lt0 i
  have hi1 : (i 1).val < 256 := idx2_lt1 i
  intro a
  match a with
  | ⟨0, _⟩ => show off 0 ≤ (i 0).val ∧ (i 0).val < off 0 + size 0; rw [ho 0, h0]; omega
  | ⟨1, _⟩ => show off 1 ≤ (i 1).val ∧ (i 1).val < off 1 + size 1; rw [ho 1, h1]; omega

/-- So the first result array ends holding the first row after the last point, -/
theorem final_1 (c : Dev nD) : (dat0 V c).arrAt 1 cfg0.N = res1 V c :=
  (dat0 V c).arrAt_eq_of_cover 1 (res1 V c) (flushed_1 V c) fun i =>
    ⟨t0_15, (flush0_1 t0_15).mpr rfl, by
      show i ∈ ((View.whole main_v0_0).slice (win0_1.rect t0_15)).set
      rw [View.set_slice_whole]
      exact mem_row i (by decide +kernel : ∀ a, win0_1.index t0_15 a * win0_1.size a = 0)
        (by decide +kernel : win0_1.xsize (grid0.coords t0_15) 0 = 1)
        (by decide +kernel : win0_1.xsize (grid0.coords t0_15) 1 = 256)⟩

/-- and the second result array the second row. -/
theorem final_2 (c : Dev nD) : (dat0 V c).arrAt 2 cfg0.N = res2 V c :=
  (dat0 V c).arrAt_eq_of_cover 2 (res2 V c) (flushed_2 V c) fun i =>
    ⟨t0_15, (flush0_2 t0_15).mpr rfl, by
      show i ∈ ((View.whole main_v0_1).slice (win0_2.rect t0_15)).set
      rw [View.set_slice_whole]
      exact mem_row i (by decide +kernel : ∀ a, win0_2.index t0_15 a * win0_2.size a = 0)
        (by decide +kernel : win0_2.xsize (grid0.coords t0_15) 0 = 1)
        (by decide +kernel : win0_2.xsize (grid0.coords t0_15) 1 = 256)⟩

/-- The running sum over all sixteen blocks is the sum over all 65536 rows. -/
theorem range_all (f : ℕ → EReal) : ∑ k ∈ Finset.range (4096 * (15 + 1)), f k = ∑ r : Fin 65536, f r.val :=
  (Fin.sum_univ_eq_sum_range f 65536).symm

/-- An index of a one-row array is `(0, q)`. -/
theorem row_idx (idx : S1x256.Idx) : idx = ix2 (0 : Fin 1) (idx 1) :=
  (eq_ix2 idx).trans (congrArg (fun u : Fin 1 => ix2 u (idx 1))
    (Fin.ext (show (idx 0).val = 0 by have := idx2_lt0 idx; omega)))

/-- After the statistics region its first result array holds, in column `q`, the sum of column `q` of the data. -/
theorem stats_sum (c : Dev nD) (idx : S1x256.Idx) :
    (dat0 (F := Ideal) V c).arrAt 1 cfg0.N idx
      = Cert.Spec.colSum (Cert.Spec.mat (V c main_arg0)) ⟨(idx 1).val, (idx 1).isLt⟩ := by
  rw [final_1 V c]
  refine (congrArg (res1 V c) (row_idx idx)).trans ?_
  refine ((acc_eq V c (idx 1) 15 last_lt).1.trans (range_all _)).trans ?_
  unfold Cert.Spec.colSum
  exact Finset.sum_congr rfl fun r _ => colAt_of_lt V c (idx 1) r.val r.isLt

/-- After the statistics region its second result array holds, in column `q`, the sum of the squares of column `q`. -/
theorem stats_sumsq (c : Dev nD) (idx : S1x256.Idx) :
    (dat0 (F := Ideal) V c).arrAt 2 cfg0.N idx
      = Cert.Spec.colSumSq (Cert.Spec.mat (V c main_arg0)) ⟨(idx 1).val, (idx 1).isLt⟩ := by
  rw [final_2 V c]
  refine (congrArg (res2 V c) (row_idx idx)).trans ?_
  refine ((acc_eq V c (idx 1) 15 last_lt).2.trans (range_all _)).trans ?_
  unfold Cert.Spec.colSumSq
  exact Finset.sum_congr rfl fun r _ =>
    congrArg₂ (· * ·) (colAt_of_lt V c (idx 1) r.val r.isLt) (colAt_of_lt V c (idx 1) r.val r.isLt)

end Cert.KernelIdeal.KV

end
-- ==== Proof.KI.Host.lean ====
/-
  The host operations between the two kernel regions, read entry by entry at the ideal instance: the mean row is the
  column sums divided by the batch size, the variance row is the column sums of squares divided by the batch size minus
  the squared mean, each weight matrix is transposed (its change of float format the identity), and each one-dimensional
  parameter is laid out as one row.
-/
import proofs.«123519_j64699387347198_1_alg».proof.Proof.Gen.KernelIdeal.Frame
import proofs.«123519_j64699387347198_1_alg».proof.Proof.Spec
import Idealize.ShloMosaic.Lib.Pipeline.Value
import Idealize.ShloMosaic.Lib.ValueLayout
import Idealize.ShloMosaic.Lib.IdealHost
import Idealize.ShloMosaic.Lib.StableHlo.Run

noncomputable section

namespace Cert.KernelIdeal.KV

open Idealize.ShloMosaic Idealize.ShloMosaic.TcCoe Idealize.SL.Sem Idealize.ShloMosaic.ValueIdx
open Cert.KernelIdeal Cert.KernelIdeal.Gen Cert.Spec

variable (X : Valuation τ sig (Elt Ideal))

/-- The mean row: the first statistics array divided by the batch size. -/
theorem host_mean (q : Fin 256) :
    row (StableHlo.after (hostOps1 (F := Ideal)) X (Proc.devRef .tc main_v2)) q
      = Ideal.div (row (X (Proc.devRef .tc main_v0_0)) q) cN := by
  have e : StableHlo.after (hostOps1 (F := Ideal)) X (Proc.devRef .tc main_v2)
      = Host.divf (X (Proc.devRef .tc main_v0_0)) (broadcastInDim S1x256 ![] bcast_S_S1x256 (constant (F := Ideal) S_ .f32 0x47800000#32)) := by
    after_results
    all_goals rfl
  unfold row
  rw [e, hostDivf_apply, broadcastInDim_scalar_apply]
  rfl

/-- The variance row: the second statistics array divided by the batch size, minus the squared mean. -/
theorem host_var (q : Fin 256) :
    row (StableHlo.after (hostOps1 (F := Ideal)) X (Proc.devRef .tc main_v6)) q
      = Ideal.div (row (X (Proc.devRef .tc main_v0_1)) q) cN
        - Ideal.div (row (X (Proc.devRef .tc main_v0_0)) q) cN * Ideal.div (row (X (Proc.devRef .tc main_v0_0)) q) cN := by
  have e : StableHlo.after (hostOps1 (F := Ideal)) X (Proc.devRef .tc main_v6)
      = subf (Host.divf (X (Proc.devRef .tc main_v0_1)) (broadcastInDim S1x256 ![] bcast_S_S1x256 (constant (F := Ideal) S_ .f32 0x47800000#32)))
          (mulf (Host.divf (X (Proc.devRef .tc main_v0_0)) (broadcastInDim S1x256 ![] bcast_S_S1x256 (constant (F := Ideal) S_ .f32 0x47800000#32)))
            (Host.divf (X (Proc.devRef .tc main_v0_0)) (broadcastInDim S1x256 ![] bcast_S_S1x256 (constant (F := Ideal) S_ .f32 0x47800000#32)))) := by
    after_results
    all_goals rfl
  unfold row
  rw [e, subf_apply, mulf_apply, hostDivf_apply, hostDivf_apply, broadcastInDim_scalar_apply]
  rfl

/-- The first layer's weights as the fused region finds them: the argument transposed. -/
theorem host_w1 (o : Fin 512) (a : Fin 256) :
    matT (StableHlo.after (hostOps1 (F := Ideal)) X (Proc.devRef .tc main_v8)) o a = mat (X (Proc.devRef .tc main_arg3)) o a := by
  have e : StableHlo.after (hostOps1 (F := Ideal)) X (Proc.devRef .tc main_v8)
      = (truncf (F := Ideal) .bf16 (transpose S256x512 [1, 0] (X (Proc.devRef .tc main_arg3)) transposes_S512x256_S256x512_1_0) bitsLt_bf16_f32 : FVec Ideal S256x512 .bf16) := by
    after_results
    all_goals rfl
  unfold matT mat
  rw [e, truncf_apply]
  exact transpose_ix2_apply _ _ a o

/-- The second layer's weights as the fused region finds them: the argument transposed. -/
theorem host_w2 (o : Fin 2048) (a : Fin 512) :
    matT (StableHlo.after (hostOps1 (F := Ideal)) X (Proc.devRef .tc main_v10)) o a = mat (X (Proc.devRef .tc main_arg5)) o a := by
  have e : StableHlo.after (hostOps1 (F := Ideal)) X (Proc.devRef .tc main_v10)
      = (truncf (F := Ideal) .bf16 (transpose S512x2048 [1, 0] (X (Proc.devRef .tc main_arg5)) transposes_S2048x512_S512x2048_1_0) bitsLt_bf16_f32 : FVec Ideal S512x2048 .bf16) := by
    after_results
    all_goals rfl
  unfold matT mat
  rw [e, truncf_apply]
  exact transpose_ix2_apply _ _ a o

/-- The last layer's weights as the fused region finds them: the argument transposed. -/
theorem host_wf (o : Fin 256) (a : Fin 2048) :
    matT (StableHlo.after (hostOps1 (F := Ideal)) X (Proc.devRef .tc main_v12)) o a = mat (X (Proc.devRef .tc main_arg7)) o a := by
  have e : StableHlo.after (hostOps1 (F := Ideal)) X (Proc.devRef .tc main_v12)
      = (truncf (F := Ideal) .bf16 (transpose S2048x256 [1, 0] (X (Proc.devRef .tc main_arg7)) transposes_S256x2048_S2048x256_1_0) bitsLt_bf16_f32 : FVec Ideal S2048x256 .bf16) := by
    after_results
    all_goals rfl
  unfold matT mat
  rw [e, truncf_apply]
  exact transpose_ix2_apply _ _ a o

/-- The scale parameter laid out as one row. -/
theorem host_gamma (q : Fin 256) :
    row (StableHlo.after (hostOps1 (F := Ideal)) X (Proc.devRef .tc main_v13)) q = vec (X (Proc.devRef .tc main_arg1)) q := by
  have e : StableHlo.after (hostOps1 (F := Ideal)) X (Proc.devRef .tc main_v13)
      = shapeCast S1x256 (X (Proc.devRef .tc main_arg1)) shapeCasts_S256_S1x256 := by
    after_results
    all_goals rfl
  unfold row vec
  rw [e]
  exact shapeCast_a_1a_apply _ _ 0 q

/-- The shift parameter laid out as one row. -/
theorem host_beta (q : Fin 256) :
    row (StableHlo.after (hostOps1 (F := Ideal)) X (Proc.devRef .tc main_v14)) q = vec (X (Proc.devRef .tc main_arg2)) q := by
  have e : StableHlo.after (hostOps1 (F := Ideal)) X (Proc.devRef .tc main_v14)
      = shapeCast S1x256 (X (Proc.devRef .tc main_arg2)) shapeCasts_S256_S1x256 := by
    after_results
    all_goals rfl
  unfold row vec
  rw [e]
  exact shapeCast_a_1a_apply _ _ 0 q

/-- The first layer's bias laid out as one row. -/
theorem host_b1 (q : Fin 512) :
    row (StableHlo.after (hostOps1 (F := Ideal)) X (Proc.devRef .tc main_v15)) q = vec (X (Proc.devRef .tc main_arg4)) q := by
  have e : StableHlo.after (hostOps1 (F := Ideal)) X (Proc.devRef .tc main_v15)
      = shapeCast S1x512 (X (Proc.devRef .tc main_arg4)) shapeCasts_S512_S1x512 := by
    after_results
    all_goals rfl
  unfold row vec
  rw [e]
  exact shapeCast_a_1a_apply _ _ 0 q

/-- The second layer's bias laid out as one row. -/
theorem host_b2 (q : Fin 2048) :
    row (StableHlo.after (hostOps1 (F := Ideal)) X (Proc.devRef .tc main_v16)) q = vec (X (Proc.devRef .tc main_arg6)) q := by
  have e : StableHlo.after (hostOps1 (F := Ideal)) X (Proc.devRef .tc main_v16)
      = shapeCast S1x2048 (X (Proc.devRef .tc main_arg6)) shapeCasts_S2048_S1x2048 := by
    after_results
    all_goals rfl
  unfold row vec
  rw [e]
  exact shapeCast_a_1a_apply _ _ 0 q

/-- The last layer's bias laid out as one row. -/
theorem host_bf (q : Fin 256) :
    row (StableHlo.after (hostOps1 (F := Ideal)) X (Proc.devRef .tc main_v17)) q = vec (X (Proc.devRef .tc main_arg8)) q := by
  have e : StableHlo.after (hostOps1 (F := Ideal)) X (Proc.devRef .tc main_v17)
      = shapeCast S1x256 (X (Proc.devRef .tc main_arg8)) shapeCasts_S256_S1x256 := by
    after_results
    all_goals rfl
  unfold row vec
  rw [e]
  exact shapeCast_a_1a_apply _ _ 0 q

end Cert.KernelIdeal.KV

end
-- ==== Proof.KI.MainPayload.lean ====
/-
  The fused kernel's two stored values as functions of the blocks it loads, entry by entry: the first is the
  hyperbolic tangent of the normalised entry, the second the three affine layers applied to the normalised row
  followed by the hyperbolic tangent.  Each matrix product against a zero accumulator is a plain sum over the
  contracted coordinate, a change of float format is the identity, and a one-row block broadcast over the rows reads
  its column.
-/
import proofs.«123519_j64699387347198_1_alg».proof.Proof.Gen.KernelIdeal.Skeleton
import proofs.«123519_j64699387347198_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KV

open Idealize.ShloMosaic Idealize.ShloMosaic.ValueIdx
open Cert.KernelIdeal Cert.KernelIdeal.Gen Cert.Spec

/-- The normalised, affinely mapped entry of a block, from the block and the four one-row blocks. -/
def xnBlk (x0 : Vec Ideal S1024x256 .f32) (x1 x2 x3 x4 : Vec Ideal S1x256 .f32) (p : Fin 1024) (a : Fin 256) : EReal :=
  (x0 (ix2 p a) - row x1 a) * Ideal.rsqrt (row x2 a + eps) * row x3 a + row x4 a

/-- A one-row block broadcast over the 1024 rows reads, at row `p` and column `c`, its entry at column `c`. -/
theorem bc_apply {b : Nat} (v : FVec Ideal (⟨2, ![1, b]⟩ : Shape) .f32) (h : (⟨2, ![1, b]⟩ : Shape).Broadcasts ⟨2, ![1024, b]⟩)
    (p : Fin 1024) (c : Fin b) : broadcastTo ⟨2, ![1024, b]⟩ v h (ix2 p c) = v (ix2 (0 : Fin 1) c) :=
  broadcastTo_1b_ab_apply v h p c

/-- The value both stored values are computed from, at row `p` and column `a`: the normalised, affinely mapped entry. -/
theorem xn_apply (x0 : Vec Ideal S1024x256 .f32) (x1 x2 x3 x4 : Vec Ideal S1x256 .f32) (p : Fin 1024) (a : Fin 256) :
    k1_pay2 (F := Ideal) x0 x1 x2 x3 x4 (ix2 p a) = xnBlk x0 x1 x2 x3 x4 p a := by
  unfold k1_pay2 xnBlk row eps
  simp only [shapeCast_self]
  rw [addf_apply, mulf_apply, mulf_apply, subf_apply]
  rw [bc_apply, bc_apply, bc_apply, bc_apply]
  rfl

/-! ## The first product: 256 coordinates contracted -/

/-- The left operand's row coordinate is the result's row coordinate. -/
theorem lhs_mm1_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
/-- The left operand's column coordinate is the contracted coordinate. -/
theorem lhs_mm1_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
/-- The right operand's row coordinate is the contracted coordinate. -/
theorem rhs_mm1_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
/-- The right operand's column coordinate is the result's column coordinate. -/
theorem rhs_mm1_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into the zero accumulator, at row `p` and column `o`: the sum over the 256 contracted coordinates. -/
theorem mm1_apply (l : FVec Ideal S1024x256 .bf16) (r : FVec Ideal S256x512 .bf16) (p : Fin 1024) (o : Fin 512) :
    matmul dot_S1024x256_S256x512_S1024x512_1_0_0_1_n_n none l r (constant (F := Ideal) S1024x512 .f32 0x00000000#32) (ix2 p o)
      = ∑ a : Fin 256, l (ix2 p a) * r (ix2 a o) := by
  refine (Ideal.matmul_constant_zero_apply dot_S1024x256_S256x512_S1024x512_1_0_0_1_n_n none l r (ix2 p o)).trans ?_
  rw [← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p o) ((ValueIdx.contrEquiv1 dot_S1024x256_S256x512_S1024x512_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S1024x256_S256x512_S1024x512_1_0_0_1_n_n.rhsIdx (ix2 p o) ((ValueIdx.contrEquiv1 dot_S1024x256_S256x512_S1024x512_1_0_0_1_n_n 256 rfl rfl).symm k) = ix2 k o := funext fun a => Fin.ext (by
    match a with
    | ⟨0, _⟩ => exact (rhs_mm1_0 _ _).trans hk
    | ⟨1, _⟩ => exact rhs_mm1_1 _ _)
  rw [el, er]

/-! ## The second product: 512 coordinates contracted -/

/-- The left operand's row coordinate is the result's row coordinate. -/
theorem lhs_mm2_0 (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- The left operand's column coordinate is the contracted coordinate. -/
theorem lhs_mm2_1 (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
/-- The right operand's row coordinate is the contracted coordinate. -/
theorem rhs_mm2_0 (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
/-- The right operand's column coordinate is the result's column coordinate. -/
theorem rhs_mm2_1 (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The product into the zero accumulator, at row `p` and column `o`: the sum over the 512 contracted coordinates. -/
theorem mm2_apply (l : FVec Ideal S1024x512 .bf16) (r : FVec Ideal S512x2048 .bf16) (p : Fin 1024) (o : Fin 2048) :
    matmul dot_S1024x512_S512x2048_S1024x2048_1_0_0_1_n_n none l r (constant (F := Ideal) S1024x2048 .f32 0x00000000#32) (ix2 p o)
      = ∑ a : Fin 512, l (ix2 p a) * r (ix2 a o) := by
  refine (Ideal.matmul_constant_zero_apply dot_S1024x512_S512x2048_S1024x2048_1_0_0_1_n_n none l r (ix2 p o)).trans ?_
  rw [← Equiv.sum_comp (ValueIdx.contrEquiv1 dot_S1024x512_S512x2048_S1024x2048_1_0_0_1_n_n 512 rfl rfl).symm]
  refine Finset.sum_congr rfl fun k _ => ?_
  have hk := ValueIdx.contrEquiv1_symm_val dot_S1024x512_S512x2048_S1024x2048_1_0_0_1_n_n 512 rfl rfl k
  have el : dot_S1024x512_S512x2048_S1024x2048_1_0_0_1_n_n.lhsIdx (ix2 p o) ((ValueIdx.contrEquiv1 dot_S1024x512_S512x2048_S1024x2048_1_0_0_1_n_n 512 rfl rfl).symm k) = ix2 p k := funext fun a => Fin.ext (by
    match a with
    | ⟨0, _⟩ => exact lhs_mm2_0 _ _
    | ⟨1, _⟩ => exact (lhs_mm2_1 _ _).trans hk)
  have er : dot_S1024x512_S512x2048_S1024x2048_1_0_0_1_n_n.rhsIdx (ix2 p o) ((ValueIdx.contrEquiv1 dot_S1024x512_S512x2048_S1024x2048_1_0_0_1_n_n 512 rfl rfl).symm k) = ix2 k o := funext fun a => Fin.ext (by
    match a with
    | ⟨0, _⟩ => exact (rhs_mm2_0 _ _).trans hk
    | ⟨1, _⟩ => exact rhs_mm2_1 _ _)
  rw [el, er]

/-! ## The third product: 2048 coordinates contracted -/

/-- The left operand's row coordinate is the result's row coordinate. -/
theorem lhs_mm3_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- The left operand's column coordinate is the contracted coordinate. -/
theorem lhs_mm3_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
/-- The right operand's row coordinate is the contracted coordinate. -/
theorem rhs_mm3_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
/-- The right operand's column coordinate is the result's column coordinate. -/
theorem rhs_mm3_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The product into the zero accumulator, at row `p` and column `o`: the sum over the 2048 contracted coordinates. -/
theorem mm3_apply (l : FVec Ideal S1024x2048 .bf16) (r : FVec Ideal S2048x256 .bf16) (p : Fin 1024) (o : Fin 256) :
    matmul dot_S1024x2048_S2048x256_S1024x256_1_0_0_1_n_n none l r (constant (F := Ideal) S1024x256 .f32 0x00000000#32) (ix2 p o)
      = ∑ a : Fin 2048, l (ix2 p a) * r (ix2 a o) := by
  refine (Ideal.matmul_constant_zero_apply dot_S1024x2048_S2048x256_S1024x256_1_0_0_1_n_n none l r (ix2 p o)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p o) ((ValueIdx.contrEquiv1 dot_S1024x2048_S2048x256_S1024x256_1_0_0_1_n_n 2048 rfl rfl).symm k) = ix2 p k := funext fun a => Fin.ext (by
    match a with
    | ⟨0, _⟩ => exact lhs_mm3_0 _ _
    | ⟨1, _⟩ => exact (lhs_mm3_1 _ _).trans hk)
  have er : dot_S1024x2048_S2048x256_S1024x256_1_0_0_1_n_n.rhsIdx (ix2 p o) ((ValueIdx.contrEquiv1 dot_S1024x2048_S2048x256_S1024x256_1_0_0_1_n_n 2048 rfl rfl).symm k) = ix2 k o := funext fun a => Fin.ext (by
    match a with
    | ⟨0, _⟩ => exact (rhs_mm3_0 _ _).trans hk
    | ⟨1, _⟩ => exact rhs_mm3_1 _ _)
  rw [el, er]

/-! ## The layers -/

/-- The second product (before its added row), at row `p` and column `o`: the sum over the first layer's 512 results. -/
theorem k4_apply (x0 : Vec Ideal S1024x256 .f32) (x1 x2 x3 x4 : Vec Ideal S1x256 .f32)
    (x5 : Vec Ideal S256x512 .bf16) (x6 : Vec Ideal S1x512 .f32) (x7 : Vec Ideal S512x2048 .bf16)
    (p : Fin 1024) (o : Fin 2048) :
    k1_pay4 (F := Ideal) x0 x1 x2 x3 x4 x5 x6 x7 (ix2 p o)
      = ∑ b : Fin 512, layer (xnBlk x0 x1 x2 x3 x4 p) (matT x5) (row x6) b * matT x7 o b := by
  unfold k1_pay4
  simp only [shapeCast_self]
  refine (mm2_apply _ _ p o).trans ?_
  refine Finset.sum_congr rfl fun b _ => ?_
  rw [truncf_apply, addf_apply, mm1_apply, bc_apply]
  unfold layer matT row
  refine congrArg (· * x7 (ix2 b o)) (congrArg (· + x6 (ix2 (0 : Fin 1) b)) (Finset.sum_congr rfl fun a _ => ?_))
  rw [truncf_apply, xn_apply]

/-- The value stored to the second result block, at row `p` and column `q`. -/
theorem pay_raw (x0 : Vec Ideal S1024x256 .f32) (x1 x2 x3 x4 : Vec Ideal S1x256 .f32) (p : Fin 1024) (q : Fin 256) :
    k1_pay3 (F := Ideal) x0 x1 x2 x3 x4 (ix2 p q) = Ideal.tanh (xnBlk x0 x1 x2 x3 x4 p q) := by
  unfold k1_pay3
  exact congrArg Ideal.tanh (xn_apply x0 x1 x2 x3 x4 p q)

/-- The value stored to the first result block, at row `p` and column `q`. -/
theorem pay_out (x0 : Vec Ideal S1024x256 .f32) (x1 x2 x3 x4 : Vec Ideal S1x256 .f32)
    (x5 : Vec Ideal S256x512 .bf16) (x6 : Vec Ideal S1x512 .f32) (x7 : Vec Ideal S512x2048 .bf16)
    (x8 : Vec Ideal S1x2048 .f32) (x9 : Vec Ideal S2048x256 .bf16) (x10 : Vec Ideal S1x256 .f32)
    (p : Fin 1024) (q : Fin 256) :
    k1_pay1 (F := Ideal) (k1_pay4 x0 x1 x2 x3 x4 x5 x6 x7) x8 x9 x10 (ix2 p q)
      = Ideal.tanh (layer (layer (layer (xnBlk x0 x1 x2 x3 x4 p) (matT x5) (row x6)) (matT x7) (row x8)) (matT x9) (row x10) q) := by
  unfold k1_pay1
  simp only [shapeCast_self]
  refine congrArg Ideal.tanh ?_
  rw [addf_apply, mm3_apply, bc_apply]
  refine congrArg (· + x10 (ix2 (0 : Fin 1) q)) (Finset.sum_congr rfl fun c _ => ?_)
  rw [truncf_apply, addf_apply, bc_apply, k4_apply]
  rfl

end Cert.KernelIdeal.KV

end
-- ==== Proof.KI.MainValue.lean ====
/-
  The fused kernel: each of 64 grid points normalises a block of 1024 rows with the mean and variance rows it is given,
  stores the hyperbolic tangent of the normalised block, and pushes the block through the three layers; the two arrays
  it leaves are, row by row, the specification's functions of the arrays the region finds.
-/
import proofs.«123519_j64699387347198_1_alg».proof.Proof.Gen.KernelIdeal.Frame
import proofs.«123519_j64699387347198_1_alg».proof.Proof.Spec
import proofs.«123519_j64699387347198_1_alg».proof.Proof.KI.MainPayload
import Idealize.ShloMosaic.Lib.Pipeline.Value
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The zero offsets of a whole-block rectangle. -/
theorem hz : (![0, 0] : Fin 2 → Nat) = fun _ => 0 := funext fun a => by fin_cases a <;> rfl

/-- The block indices over the grid: the row-blocked arrays (the batch and the two results) are at block `t` of
    the rows at point `t`, every other array is one block. -/
theorem idx_rows : ∀ t : Fin cfg1.N, win1_0.index t (0 : Fin 2) = t.val ∧ win1_0.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

theorem idx_whole : ∀ t : Fin cfg1.N, (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- The batch's block at point `t` is rows `1024 t … 1024 t + 1023` of the batch. -/
theorem blk_x (c : Dev nD) (t : Fin cfg1.N) (p : Fin 1024) (a : Fin 256) (r : Fin 65536)
    (hr : r.val = 1024 * t.val + p.val) :
    (iblk1 (F := Ideal) V c 0 t : Vec Ideal S1024x256 .f32) (ix2 p a) = mat (V c main_arg0) r a := by
  obtain ⟨e0, e1, -⟩ := idx_rows t
  unfold iblk1 mat
  rw [View.read_apply]
  show V c main_arg0 _ = V c main_arg0 _
  congr 1
  funext a'
  apply Fin.ext
  match a' with
  | ⟨0, _⟩ => show win1_0.index t (0 : Fin 2) * 1024 + 1 * p.val = r.val; rw [e0, hr]; omega
  | ⟨1, _⟩ => show win1_0.index t (1 : Fin 2) * 256 + 1 * a.val = a.val; rw [e1]; omega

/-- The mean row's block is the mean row. -/
theorem blk1 (c : Dev nD) (t : Fin cfg1.N) : (iblk1 (F := Ideal) V c 1 t : Vec Ideal S1x256 .f32) = V c main_v2 := by
  obtain ⟨⟨e0, e1⟩, -⟩ := idx_whole t
  funext y
  unfold iblk1
  rw [View.read_apply]
  show V c main_v2 _ = V c main_v2 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

/-- The variance row's block is the variance row. -/
theorem blk2 (c : Dev nD) (t : Fin cfg1.N) : (iblk1 (F := Ideal) V c 2 t : Vec Ideal S1x256 .f32) = V c main_v6 := by
  obtain ⟨-, ⟨e0, e1⟩, -, -, -, -, -, -, -, -⟩ := idx_whole t
  funext y
  unfold iblk1
  rw [View.read_apply]
  show V c main_v6 _ = V c main_v6 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The scale row's block is the scale row. -/
theorem blk3 (c : Dev nD) (t : Fin cfg1.N) : (iblk1 (F := Ideal) V c 3 t : Vec Ideal S1x256 .f32) = V c main_v13 := by
  obtain ⟨-, -, ⟨e0, e1⟩, -, -, -, -, -, -, -⟩ := idx_whole t
  funext y
  unfold iblk1
  rw [View.read_apply]
  show V c main_v13 _ = V c main_v13 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The shift row's block is the shift row. -/
theorem blk4 (c : Dev nD) (t : Fin cfg1.N) : (iblk1 (F := Ideal) V c 4 t : Vec Ideal S1x256 .f32) = V c main_v14 := by
  obtain ⟨-, -, -, ⟨e0, e1⟩, -, -, -, -, -, -⟩ := idx_whole t
  funext y
  unfold iblk1
  rw [View.read_apply]
  show V c main_v14 _ = V c main_v14 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The first layer's weights are one block. -/
theorem blk5 (c : Dev nD) (t : Fin cfg1.N) : (iblk1 (F := Ideal) V c 5 t : Vec Ideal S256x512 .bf16) = V c main_v8 := by
  obtain ⟨-, -, -, -, ⟨e0, e1⟩, -, -, -, -, -⟩ := idx_whole t
  funext y
  unfold iblk1
  rw [View.read_apply]
  show V c main_v8 _ = V c main_v8 y
  congr 1
  funext a
  apply Fin.ext
  match a with
  | ⟨0, _⟩ => show win1_5.index t (0 : Fin 2) * 256 + 1 * (y 0).val = (y 0).val; rw [e0]; omega
  | ⟨1, _⟩ => show win1_5.index t (1 : Fin 2) * 512 + 1 * (y 1).val = (y 1).val; rw [e1]; omega

/-- The first layer's bias row is one block. -/
theorem blk6 (c : Dev nD) (t : Fin cfg1.N) : (iblk1 (F := Ideal) V c 6 t : Vec Ideal S1x512 .f32) = V c main_v15 := by
  obtain ⟨-, -, -, -, -, ⟨e0, e1⟩, -, -, -, -⟩ := idx_whole t
  funext y
  unfold iblk1
  rw [View.read_apply]
  show V c main_v15 _ = V c main_v15 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 512 + 1 * (y 1).val = (y 1).val; rw [e1]; omega

/-- The second layer's weights are one block. -/
theorem blk7 (c : Dev nD) (t : Fin cfg1.N) : (iblk1 (F := Ideal) V c 7 t : Vec Ideal S512x2048 .bf16) = V c main_v10 := by
  obtain ⟨-, -, -, -, -, -, ⟨e0, e1⟩, -, -, -⟩ := idx_whole t
  funext y
  unfold iblk1
  rw [View.read_apply]
  show V c main_v10 _ = V c main_v10 y
  congr 1
  funext a
  apply Fin.ext
  match a with
  | ⟨0, _⟩ => show win1_7.index t (0 : Fin 2) * 512 + 1 * (y 0).val = (y 0).val; rw [e0]; omega
  | ⟨1, _⟩ => show win1_7.index t (1 : Fin 2) * 2048 + 1 * (y 1).val = (y 1).val; rw [e1]; omega

/-- The second layer's bias row is one block. -/
theorem blk8 (c : Dev nD) (t : Fin cfg1.N) : (iblk1 (F := Ideal) V c 8 t : Vec Ideal S1x2048 .f32) = V c main_v16 := by
  obtain ⟨-, -, -, -, -, -, -, ⟨e0, e1⟩, -, -⟩ := idx_whole t
  funext y
  unfold iblk1
  rw [View.read_apply]
  show V c main_v16 _ = V c main_v16 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 2048 + 1 * (y 1).val = (y 1).val; rw [e1]; omega

/-- The last layer's weights are one block. -/
theorem blk9 (c : Dev nD) (t : Fin cfg1.N) : (iblk1 (F := Ideal) V c 9 t : Vec Ideal S2048x256 .bf16) = V c main_v12 := by
  obtain ⟨-, -, -, -, -, -, -, -, ⟨e0, e1⟩, -⟩ := idx_whole t
  funext y
  unfold iblk1
  rw [View.read_apply]
  show V c main_v12 _ = V c main_v12 y
  congr 1
  funext a
  apply Fin.ext
  match a with
  | ⟨0, _⟩ => show win1_9.index t (0 : Fin 2) * 2048 + 1 * (y 0).val = (y 0).val; rw [e0]; omega
  | ⟨1, _⟩ => show win1_9.index t (1 : Fin 2) * 256 + 1 * (y 1).val = (y 1).val; rw [e1]; omega

/-- The last layer's bias row is one block. -/
theorem blk10 (c : Dev nD) (t : Fin cfg1.N) : (iblk1 (F := Ideal) V c 10 t : Vec Ideal S1x256 .f32) = V c main_v17 := by
  obtain ⟨-, -, -, -, -, -, -, -, -, ⟨e0, e1⟩⟩ := idx_whole t
  funext y
  unfold iblk1
  rw [View.read_apply]
  show V c main_v17 _ = V c main_v17 y
  congr 1
  funext a
  apply Fin.ext
  match a with
  | ⟨0, _⟩ => show win1_10.index t (0 : Fin 2) * 1 + 1 * (y 0).val = (y 0).val; rw [e0]; omega
  | ⟨1, _⟩ => show win1_10.index t (1 : Fin 2) * 256 + 1 * (y 1).val = (y 1).val; rw [e1]; omega

/-- The normalised block at point `t`, row `p`, is the specification's normalised row `1024 t + p`. -/
theorem xnBlk_eq (c : Dev nD) (t : Fin cfg1.N) (p : Fin 1024) (r : Fin 65536) (hr : r.val = 1024 * t.val + p.val) :
    xnBlk (iblk1 (F := Ideal) V c 0 t) (V c main_v2) (V c main_v6) (V c main_v13) (V c main_v14) p
      = xn (mat (V c main_arg0)) (row (V c main_v2)) (row (V c main_v6)) (row (V c main_v13)) (row (V c main_v14)) r := by
  funext a
  unfold xnBlk xn
  rw [blk_x V c t p a r hr]

/-- The second result array as one function of the arrays the region finds. -/
def Graw (c : Dev nD) : S65536x256.Idx → Elt Ideal .f32 := fun k =>
  raw (mat (V c main_arg0)) (row (V c main_v2)) (row (V c main_v6)) (row (V c main_v13)) (row (V c main_v14))
    ⟨(k 0).val, (k 0).isLt⟩ ⟨(k 1).val, (k 1).isLt⟩

/-- The first result array as one function of the arrays the region finds. -/
def Gout (c : Dev nD) : S65536x256.Idx → Elt Ideal .f32 := fun k =>
  out (mat (V c main_arg0)) (row (V c main_v2)) (row (V c main_v6)) (row (V c main_v13)) (row (V c main_v14))
    (matT (V c main_v8)) (row (V c main_v15)) (matT (V c main_v10)) (row (V c main_v16))
    (matT (V c main_v12)) (row (V c main_v17)) ⟨(k 0).val, (k 0).isLt⟩ ⟨(k 1).val, (k 1).isLt⟩

/-- What point `t` stores at `y` of the second result's block is the function at row `1024 t + y₀`, column `y₁`. -/
theorem raw_at (c : Dev nD) (t : Fin cfg1.N) (y : S1024x256.Idx) (k : S65536x256.Idx)
    (hk0 : (k 0).val = 1024 * t.val + (y 0).val) (hk1 : (k 1).val = (y 1).val) :
    k1_pay3 (F := Ideal) (iblk1 (F := Ideal) V c 0 t) (V c main_v2) (V c main_v6) (V c main_v13) (V c main_v14) y = Graw V c k := by
  obtain ⟨p, q, rfl⟩ : ∃ (p : Fin 1024) (q : Fin 256), y = ix2 p q := ⟨y 0, y 1, eq_ix2 y⟩
  rw [pay_raw]
  unfold Graw raw
  rw [xnBlk_eq V c t p ⟨(k 0).val, (k 0).isLt⟩ hk0]
  have hq : q = ⟨(k 1).val, (k 1).isLt⟩ := Fin.ext hk1.symm
  rw [hq]

/-- What point `t` stores at `y` of the first result's block is the function at row `1024 t + y₀`, column `y₁`. -/
theorem out_at (c : Dev nD) (t : Fin cfg1.N) (y : S1024x256.Idx) (k : S65536x256.Idx)
    (hk0 : (k 0).val = 1024 * t.val + (y 0).val) (hk1 : (k 1).val = (y 1).val) :
    k1_pay1 (F := Ideal) (k1_pay4 (iblk1 (F := Ideal) V c 0 t) (V c main_v2) (V c main_v6) (V c main_v13) (V c main_v14)
        (V c main_v8) (V c main_v15) (V c main_v10)) (V c main_v16) (V c main_v12) (V c main_v17) y = Gout V c k := by
  obtain ⟨p, q, rfl⟩ : ∃ (p : Fin 1024) (q : Fin 256), y = ix2 p q := ⟨y 0, y 1, eq_ix2 y⟩
  rw [pay_out]
  unfold Gout out
  rw [xnBlk_eq V c t p ⟨(k 0).val, (k 0).isLt⟩ hk0]
  have hq : q = ⟨(k 1).val, (k 1).isLt⟩ := Fin.ext hk1.symm
  rw [hq]

/-- What point `t` writes back of the second result is block `t` of its function. -/
theorem flushed_Graw (c : Dev nD) (t : Fin cfg1.N) :
    (dat1 (F := Ideal) V c).flushed 12 t = ((cfg1.win 12).blk t).view.read (Elt Ideal) (Graw V c) := by
  show (cfg1.win 12).cut (grid1.coords t) ((dat1 (F := Ideal) V c).after 12 t) = _
  rw [after1_12]
  unfold out1_12
  rw [View.canon_unit_zero hz]
  simp only [View.ld_unit_zero (S := S1024x256) hz, View.ld_unit_zero (S := S1x256) hz,
    View.ld_unit_zero (S := S256x512) hz, View.ld_unit_zero (S := S1x512) hz, View.ld_unit_zero (S := S512x2048) hz,
    View.ld_unit_zero (S := S1x2048) hz, View.ld_unit_zero (S := S2048x256) hz]
  rw [blk1 V c t, blk2 V c t, blk3 V c t, blk4 V c t]
  obtain ⟨-, -, -, -, e0, e1⟩ := idx_rows t
  funext y
  refine (raw_at V c t y (((cfg1.win 12).blk t).view.emb y) ?_ ?_).trans ?_
  · show win1_12.index t (0 : Fin 2) * 1024 + 1 * (y 0).val = 1024 * t.val + (y 0).val; rw [e0]; omega
  · show win1_12.index t (1 : Fin 2) * 256 + 1 * (y 1).val = (y 1).val; rw [e1]; omega
  · rfl

/-- An index of the array is in point `t`'s block iff each coordinate is in the block's range on its axis. -/
theorem mem_blk_Graw (t : Fin cfg1.N) (i : S65536x256.Idx) :
    i ∈ ((cfg1.win 12).blk t).view.set ↔ ∀ a : Fin 2, win1_12.index t a * S1024x256.size a ≤ (i a).val ∧ (i a).val < win1_12.index t a * S1024x256.size a + S1024x256.size a := by
  show i ∈ ((View.whole main_v18_1).slice (win1_12.rect t)).set ↔ _
  rw [View.set_slice_whole, Rect.mem_set_unit]
  exact Iff.rfl

/-- Every row is in the block of the point `row / 1024`. -/
theorem cover_Graw (i : S65536x256.Idx) :
    ∃ t : Fin cfg1.N, (cfg1.win 12).flush t = true ∧ i ∈ ((cfg1.win 12).blk t).view.set := by
  have hi0 : (i 0).val < 65536 := (i 0).isLt
  have hi1 : (i 1).val < 256 := (i 1).isLt
  have hN : grid1.N = 64 := N_1
  let t : Fin cfg1.N := ⟨(i 0).val / 1024, by show (i 0).val / 1024 < grid1.N; omega⟩
  have ht : t.val = (i 0).val / 1024 := rfl
  obtain ⟨-, -, -, -, e0, e1⟩ := idx_rows t
  refine ⟨t, flush1_12 t, ?_⟩
  rw [mem_blk_Graw]
  intro a
  match a with
  | ⟨0, _⟩ => show win1_12.index t (0 : Fin 2) * 1024 ≤ (i 0).val ∧ (i 0).val < win1_12.index t (0 : Fin 2) * 1024 + 1024; rw [e0, ht]; omega
  | ⟨1, _⟩ => show win1_12.index t (1 : Fin 2) * 256 ≤ (i 1).val ∧ (i 1).val < win1_12.index t (1 : Fin 2) * 256 + 256; rw [e1]; omega

/-- What point `t` writes back of the first result is block `t` of its function. -/
theorem flushed_Gout (c : Dev nD) (t : Fin cfg1.N) :
    (dat1 (F := Ideal) V c).flushed 11 t = ((cfg1.win 11).blk t).view.read (Elt Ideal) (Gout V c) := by
  show (cfg1.win 11).cut (grid1.coords t) ((dat1 (F := Ideal) V c).after 11 t) = _
  rw [after1_11]
  unfold out1_11
  rw [View.canon_unit_zero hz]
  simp only [View.ld_unit_zero (S := S1024x256) hz, View.ld_unit_zero (S := S1x256) hz,
    View.ld_unit_zero (S := S256x512) hz, View.ld_unit_zero (S := S1x512) hz, View.ld_unit_zero (S := S512x2048) hz,
    View.ld_unit_zero (S := S1x2048) hz, View.ld_unit_zero (S := S2048x256) hz]
  rw [blk1 V c t, blk2 V c t, blk3 V c t, blk4 V c t, blk5 V c t, blk6 V c t, blk7 V c t, blk8 V c t, blk9 V c t, blk10 V c t]
  obtain ⟨-, -, e0, e1, -⟩ := idx_rows t
  funext y
  refine (out_at V c t y (((cfg1.win 11).blk t).view.emb y) ?_ ?_).trans ?_
  · show win1_11.index t (0 : Fin 2) * 1024 + 1 * (y 0).val = 1024 * t.val + (y 0).val; rw [e0]; omega
  · show win1_11.index t (1 : Fin 2) * 256 + 1 * (y 1).val = (y 1).val; rw [e1]; omega
  · rfl

/-- An index of the array is in point `t`'s block iff each coordinate is in the block's range on its axis. -/
theorem mem_blk_Gout (t : Fin cfg1.N) (i : S65536x256.Idx) :
    i ∈ ((cfg1.win 11).blk t).view.set ↔ ∀ a : Fin 2, win1_11.index t a * S1024x256.size a ≤ (i a).val ∧ (i a).val < win1_11.index t a * S1024x256.size a + S1024x256.size a := by
  show i ∈ ((View.whole main_v18_0).slice (win1_11.rect t)).set ↔ _
  rw [View.set_slice_whole, Rect.mem_set_unit]
  exact Iff.rfl

/-- Every row is in the block of the point `row / 1024`. -/
theorem cover_Gout (i : S65536x256.Idx) :
    ∃ t : Fin cfg1.N, (cfg1.win 11).flush t = true ∧ i ∈ ((cfg1.win 11).blk t).view.set := by
  have hi0 : (i 0).val < 65536 := (i 0).isLt
  have hi1 : (i 1).val < 256 := (i 1).isLt
  have hN : grid1.N = 64 := N_1
  let t : Fin cfg1.N := ⟨(i 0).val / 1024, by show (i 0).val / 1024 < grid1.N; omega⟩
  have ht : t.val = (i 0).val / 1024 := rfl
  obtain ⟨-, -, e0, e1, -⟩ := idx_rows t
  refine ⟨t, flush1_11 t, ?_⟩
  rw [mem_blk_Gout]
  intro a
  match a with
  | ⟨0, _⟩ => show win1_11.index t (0 : Fin 2) * 1024 ≤ (i 0).val ∧ (i 0).val < win1_11.index t (0 : Fin 2) * 1024 + 1024; rw [e0, ht]; omega
  | ⟨1, _⟩ => show win1_11.index t (1 : Fin 2) * 256 ≤ (i 1).val ∧ (i 1).val < win1_11.index t (1 : Fin 2) * 256 + 256; rw [e1]; omega

/-- The second result array of the fused region: the hyperbolic tangent of the normalised entry. -/
theorem main_raw (c : Dev nD) (i : Fin 65536) (j : Fin 256) :
    (dat1 (F := Ideal) V c).arrAt 12 cfg1.N (ix2 i j)
      = raw (mat (V c main_arg0)) (row (V c main_v2)) (row (V c main_v6)) (row (V c main_v13)) (row (V c main_v14)) i j := by
  rw [(dat1 (F := Ideal) V c).arrAt_eq_of_cover 12 (Graw V c) (fun t _ => flushed_Graw V c t) cover_Graw]
  rfl

/-- The first result array of the fused region: the three layers on the normalised row, then the hyperbolic tangent. -/
theorem main_out (c : Dev nD) (i : Fin 65536) (j : Fin 256) :
    (dat1 (F := Ideal) V c).arrAt 11 cfg1.N (ix2 i j)
      = out (mat (V c main_arg0)) (row (V c main_v2)) (row (V c main_v6)) (row (V c main_v13)) (row (V c main_v14))
          (matT (V c main_v8)) (row (V c main_v15)) (matT (V c main_v10)) (row (V c main_v16))
          (matT (V c main_v12)) (row (V c main_v17)) i j := by
  rw [(dat1 (F := Ideal) V c).arrAt_eq_of_cover 11 (Gout V c) (fun t _ => flushed_Gout V c t) cover_Gout]
  rfl

end Cert.KernelIdeal.KV

end
-- ==== Proof.KI.Final.lean ====
/-
  The idealized kernel program end to end: the two result arrays it leaves are the specification's functions of the
  argument arrays as launched, the variance being the mean of the squares minus the squared mean.  The statistics region
  leaves the column sums and column sums of squares; the host operations turn them into the mean and variance rows and
  lay out the parameters; the fused region computes both results from those.
-/
import proofs.«123519_j64699387347198_1_alg».proof.Proof.KI.Run
import proofs.«123519_j64699387347198_1_alg».proof.Proof.KI.Stats
import proofs.«123519_j64699387347198_1_alg».proof.Proof.KI.Host
import proofs.«123519_j64699387347198_1_alg».proof.Proof.KI.MainValue

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- The data array as launched, by coordinates. -/
abbrev xA (c : Dev nD) : Fin 65536 → Fin 256 → EReal := mat (m ((c : Thread nD τ).loc main_arg0))

/-- An argument no region writes is, after the statistics region, what was launched. -/
theorem W1_arg (c : Dev nD) (b : Ref sig .tc) (hb : ∀ w, Pipeline.arrRef spec0 w ≠ b) :
    W1 m ρ c (Proc.devRef .tc b) = m ((c : Thread nD τ).loc b) :=
  W1_of_ne m ρ c b hb

/-- The data array is what was launched when the fused region is entered. -/
theorem x_entry (c : Dev nD) : V2 m ρ c main_arg0 = m ((c : Thread nD τ).loc main_arg0) := by
  have e : StableHlo.after (hostOps1 (F := Ideal)) (W1 m ρ c) (Proc.devRef .tc main_arg0) = W1 m ρ c (Proc.devRef .tc main_arg0) := by
    after_results
  exact e.trans ((W1_arr m ρ c 0).trans (((dat0 (V0 m ρ) c).arrAt_in 0 rfl _).trans (A_eq0 (V0 m ρ) c 0)))

/-- The first statistics array holds the column sums of the data. -/
theorem sum_entry (c : Dev nD) (q : Fin 256) : row (W1 m ρ c (Proc.devRef .tc main_v0_0)) q = colSum (xA m c) q := by
  unfold row
  rw [W1_arr m ρ c 1, stats_sum (V0 m ρ) c (ix2 (0 : Fin 1) q)]

/-- The second statistics array holds the column sums of squares of the data. -/
theorem sumsq_entry (c : Dev nD) (q : Fin 256) : row (W1 m ρ c (Proc.devRef .tc main_v0_1)) q = colSumSq (xA m c) q := by
  unfold row
  rw [W1_arr m ρ c 2, stats_sumsq (V0 m ρ) c (ix2 (0 : Fin 1) q)]

/-- The mean row the fused region finds. -/
theorem mean_entry (c : Dev nD) : row (V2 m ρ c main_v2) = mean (xA m c) := funext fun q => by
  refine (host_mean (W1 m ρ c) q).trans ?_
  rw [sum_entry]
  rfl

/-- The variance row the fused region finds. -/
theorem var_entry (c : Dev nD) : row (V2 m ρ c main_v6) = varK (xA m c) := funext fun q => by
  refine (host_var (W1 m ρ c) q).trans ?_
  rw [sum_entry, sumsq_entry]
  rfl

theorem gamma_entry (c : Dev nD) : row (V2 m ρ c main_v13) = vec (m ((c : Thread nD τ).loc main_arg1)) := funext fun q => by
  refine (host_gamma (W1 m ρ c) q).trans ?_
  rw [W1_arg m ρ c main_arg1 (by decide)]

theorem beta_entry (c : Dev nD) : row (V2 m ρ c main_v14) = vec (m ((c : Thread nD τ).loc main_arg2)) := funext fun q => by
  refine (host_beta (W1 m ρ c) q).trans ?_
  rw [W1_arg m ρ c main_arg2 (by decide)]

theorem w1_entry (c : Dev nD) : matT (V2 m ρ c main_v8) = mat (m ((c : Thread nD τ).loc main_arg3)) := funext fun o => funext fun a => by
  refine (host_w1 (W1 m ρ c) o a).trans ?_
  rw [W1_arg m ρ c main_arg3 (by decide)]

theorem b1_entry (c : Dev nD) : row (V2 m ρ c main_v15) = vec (m ((c : Thread nD τ).loc main_arg4)) := funext fun q => by
  refine (host_b1 (W1 m ρ c) q).trans ?_
  rw [W1_arg m ρ c main_arg4 (by decide)]

theorem w2_entry (c : Dev nD) : matT (V2 m ρ c main_v10) = mat (m ((c : Thread nD τ).loc main_arg5)) := funext fun o => funext fun a => by
  refine (host_w2 (W1 m ρ c) o a).trans ?_
  rw [W1_arg m ρ c main_arg5 (by decide)]

theorem b2_entry (c : Dev nD) : row (V2 m ρ c main_v16) = vec (m ((c : Thread nD τ).loc main_arg6)) := funext fun q => by
  refine (host_b2 (W1 m ρ c) q).trans ?_
  rw [W1_arg m ρ c main_arg6 (by decide)]

theorem wf_entry (c : Dev nD) : matT (V2 m ρ c main_v12) = mat (m ((c : Thread nD τ).loc main_arg7)) := funext fun o => funext fun a => by
  refine (host_wf (W1 m ρ c) o a).trans ?_
  rw [W1_arg m ρ c main_arg7 (by decide)]

theorem bf_entry (c : Dev nD) : row (V2 m ρ c main_v17) = vec (m ((c : Thread nD τ).loc main_arg8)) := funext fun q => by
  refine (host_bf (W1 m ρ c) q).trans ?_
  rw [W1_arg m ρ c main_arg8 (by decide)]

/-- The second result array, entry by entry. -/
theorem final_raw (c : Dev nD) (i : Fin 65536) (j : Fin 256) :
    W3 m ρ c (Proc.devRef .tc main_v18_1) (ix2 i j)
      = raw (xA m c) (mean (xA m c)) (varK (xA m c)) (vec (m ((c : Thread nD τ).loc main_arg1))) (vec (m ((c : Thread nD τ).loc main_arg2))) i j := by
  rw [W3_arr m ρ c 12, main_raw (V2 m ρ) c i j, x_entry, mean_entry, var_entry, gamma_entry, beta_entry]

/-- The first result array, entry by entry. -/
theorem final_out (c : Dev nD) (i : Fin 65536) (j : Fin 256) :
    W3 m ρ c (Proc.devRef .tc main_v18_0) (ix2 i j)
      = out (xA m c) (mean (xA m c)) (varK (xA m c)) (vec (m ((c : Thread nD τ).loc main_arg1))) (vec (m ((c : Thread nD τ).loc main_arg2)))
          (mat (m ((c : Thread nD τ).loc main_arg3))) (vec (m ((c : Thread nD τ).loc main_arg4)))
          (mat (m ((c : Thread nD τ).loc main_arg5))) (vec (m ((c : Thread nD τ).loc main_arg6)))
          (mat (m ((c : Thread nD τ).loc main_arg7))) (vec (m ((c : Thread nD τ).loc main_arg8))) i j := by
  rw [W3_arr m ρ c 11, main_out (V2 m ρ) c i j, x_entry, mean_entry, var_entry, gamma_entry, beta_entry,
    w1_entry, b1_entry, w2_entry, b2_entry, wf_entry, bf_entry]

end Cert.KernelIdeal.KV

end
-- ==== Proof.lean ====
/-
  The certificate of the kernel against its reference.  Both programs normalise a batch of 65536 rows of 256 features by
  the batch mean and the biased batch variance, keep the hyperbolic tangent of the normalised rows, and push the rows
  through three affine layers and a last hyperbolic tangent.  The kernel obtains the variance as the mean of the squares
  minus the squared mean (two column sums accumulated over sixteen row blocks), the reference as the mean of the squared
  deviations; on real data (the precondition: every input entry finite) the two are one number, so the two programs'
  results agree entry by entry over the extended reals.  The matrix products against a zero accumulator are plain sums,
  the changes of float format are the identity, and the tiling of the rows into blocks does not change an entry.
  The three frames are the generated ones (the reference's is its generated run with the results dropped); the
  idealization rewrote nothing, so the preservation conjunct is trivial.
-/
import proofs.«123519_j64699387347198_1_alg».proof.Defs
import proofs.«123519_j64699387347198_1_alg».proof.Proof.Gen.Kernel
import proofs.«123519_j64699387347198_1_alg».proof.Proof.Gen.Kernel.Skeleton
import proofs.«123519_j64699387347198_1_alg».proof.Proof.Gen.Kernel.Launch
import proofs.«123519_j64699387347198_1_alg».proof.Proof.Gen.Kernel.Points
import proofs.«123519_j64699387347198_1_alg».proof.Proof.Gen.Kernel.Frame
import proofs.«123519_j64699387347198_1_alg».proof.Proof.Gen.KernelIdeal
import proofs.«123519_j64699387347198_1_alg».proof.Proof.Gen.KernelIdeal.Skeleton
import proofs.«123519_j64699387347198_1_alg».proof.Proof.Gen.KernelIdeal.Launch
import proofs.«123519_j64699387347198_1_alg».proof.Proof.Gen.KernelIdeal.Points
import proofs.«123519_j64699387347198_1_alg».proof.Proof.Gen.KernelIdeal.Frame
import proofs.«123519_j64699387347198_1_alg».proof.Proof.Gen.ReferenceIdeal
import proofs.«123519_j64699387347198_1_alg».proof.Proof.Gen.ReferenceIdeal.Run
import proofs.«123519_j64699387347198_1_alg».proof.Proof.Gen.ReferenceIdeal.Read
import proofs.«123519_j64699387347198_1_alg».proof.Proof.Gen.Pre_finite_inputs
import proofs.«123519_j64699387347198_1_alg».proof.Proof.Spec
import proofs.«123519_j64699387347198_1_alg».proof.Proof.Algebra
import proofs.«123519_j64699387347198_1_alg».proof.Proof.Finite
import proofs.«123519_j64699387347198_1_alg».proof.Proof.RefValue
import proofs.«123519_j64699387347198_1_alg».proof.Proof.KI.Final
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Over the extended reals, from memories agreeing on finite arguments, both programs end with the same two result
    arrays: entry by entry both are the specification's functions of the arguments, and the two variances agree on
    real data. -/
theorem algebraic : Cert.algebraic_KernelIdeal_ReferenceIdeal := by
  intro m ρ m' ρ' hpre hagree
  refine ⟨fun c => Cert.KernelIdeal.Gen.W3 m ρ c (Proc.devRef .tc Cert.KernelIdeal.main_v18_0),
    fun c => Cert.KernelIdeal.Gen.W3 m ρ c (Proc.devRef .tc Cert.KernelIdeal.main_v18_1),
    Cert.KernelIdeal.KV.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v41_eq _ _ _ _ _ _ _ _ _).trans ?_
    funext idx
    obtain ⟨i, j, rfl⟩ : ∃ (i : Fin 65536) (j : Fin 256), idx = ix2 i j := ⟨idx 0, idx 1, eq_ix2 idx⟩
    have hfin : ∀ i j, ∃ r : ℝ, Cert.KernelIdeal.KV.xA m c i j = (r : EReal) := fun i j =>
      Cert.Finite.finite_x _ _ _ _ _ _ _ _ _ (hpre c) i j
    show _ = Cert.KernelIdeal.Gen.W3 m ρ c (Proc.devRef .tc Cert.KernelIdeal.main_v18_0) (ix2 i j)
    rw [Cert.RefValue.ref_out, Cert.KernelIdeal.KV.final_out, Cert.Spec.varK_eq_varR _ hfin,
      (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
  · refine (Cert.ReferenceIdeal.Read.val_main_v25_eq _ _ _).trans ?_
    funext idx
    obtain ⟨i, j, rfl⟩ : ∃ (i : Fin 65536) (j : Fin 256), idx = ix2 i j := ⟨idx 0, idx 1, eq_ix2 idx⟩
    have hfin : ∀ i j, ∃ r : ℝ, Cert.KernelIdeal.KV.xA m c i j = (r : EReal) := fun i j =>
      Cert.Finite.finite_x _ _ _ _ _ _ _ _ _ (hpre c) i j
    show _ = Cert.KernelIdeal.Gen.W3 m ρ c (Proc.devRef .tc Cert.KernelIdeal.main_v18_1) (ix2 i j)
    rw [Cert.RefValue.ref_raw, Cert.KernelIdeal.KV.final_raw, Cert.Spec.varK_eq_varR _ hfin,
      (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
